-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x2048 : Shape := ⟨3, ![1, 2048, 2048]⟩
abbrev S1x2048 : Shape := ⟨2, ![1, 2048]⟩
abbrev S32000x2048 : Shape := ⟨2, ![32000, 2048]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v8 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v8 main_v17
  main_v18

def fn {F : FTy → Type} [FloatOps F] (main_arg0 : FVec F S1x2048x2048 .f32) (main_arg1 : IVec S1x2048 32) (main_arg2 : FVec F S32000x2048 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S32000x2048 .f32 := Host.absf main_arg2
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_c_2 : IVec S_ 32 := constantI S_ 32 4294967196#32
  let main_v9 : IVec S1x2048 32 := broadcastInDim S1x2048 ![] bcast_S_S1x2048 main_c_2
  let main_v10 : IVec S1x2048 1 := cmpi .eq main_arg1 main_v9
  let main_c_3 : IVec S_ 32 := constantI S_ 32 0#32
  let main_v11 : IVec S1x2048 32 := broadcastInDim S1x2048 ![] bcast_S_S1x2048 main_c_3
  let main_v12 : IVec S1x2048 1 := cmpi .sge main_arg1 main_v11
  let main_c_4 : IVec S_ 32 := constantI S_ 32 32000#32
  let main_v13 : IVec S1x2048 32 := broadcastInDim S1x2048 ![] bcast_S_S1x2048 main_c_4
  let main_v14 : IVec S1x2048 1 := cmpi .slt main_arg1 main_v13
  let main_v15 : IVec S1x2048 1 := andi main_v12 main_v14
  let main_v16 : IVec S1x2048 1 := ori main_v10 main_v15
  fn_part1 (F := F) main_v8 main_v16
-- ==== Kernel.lean ====
abbrev S1x2048x2048 : Shape := ⟨3, ![1, 2048, 2048]⟩
abbrev S1x2048 : Shape := ⟨2, ![1, 2048]⟩
abbrev S32000x2048 : Shape := ⟨2, ![32000, 2048]⟩
abbrev S1x2047x2048 : Shape := ⟨3, ![1, 2047, 2048]⟩
abbrev S2047x2048 : Shape := ⟨2, ![2047, 2048]⟩
abbrev S1x2047 : Shape := ⟨2, ![1, 2047]⟩
abbrev S2047 : Shape := ⟨1, ![2047]⟩
abbrev S_ : Shape := ⟨0, ![]⟩
abbrev S2048x2048 : Shape := ⟨2, ![2048, 2048]⟩
abbrev S2048 : Shape := ⟨1, ![2048]⟩
abbrev S2048x1 : Shape := ⟨2, ![2048, 1]⟩
abbrev S1024x2048 : Shape := ⟨2, ![1024, 2048]⟩
abbrev S640x2048 : Shape := ⟨2, ![640, 2048]⟩
abbrev S1024x1 : Shape := ⟨2, ![1024, 1]⟩
abbrev S1024x640 : Shape := ⟨2, ![1024, 640]⟩
abbrev S1024 : Shape := ⟨1, ![1024]⟩

abbrev nBuf : Space → Nat
  | .hbm => 41
  | .vmem => 10
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .i32⟩
  | .hbm, ⟨2, _⟩ => ⟨S32000x2048, .f32⟩
  | .hbm, ⟨3, _⟩ => ⟨S1x2047x2048, .f32⟩
  | .hbm, ⟨4, _⟩ => ⟨S2047x2048, .f32⟩
  | .hbm, ⟨5, _⟩ => ⟨S1x2047, .i32⟩
  | .hbm, ⟨6, _⟩ => ⟨S2047, .i32⟩
  | .hbm, ⟨7, _⟩ => ⟨S2047x2048, .bf16⟩
  | .hbm, ⟨8, _⟩ => ⟨S_, .i32⟩
  | .hbm, ⟨9, _⟩ => ⟨S_, .bf16⟩
  | .hbm, ⟨10, _⟩ => ⟨S2048x2048, .bf16⟩
  | .hbm, ⟨11, _⟩ => ⟨S_, .i32⟩
  | .hbm, ⟨12, _⟩ => ⟨S_, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048x1, .i32⟩
  | .hbm, ⟨30, _⟩ => ⟨S2048x1, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S2048, .i32⟩
  | .hbm, ⟨39, _⟩ => ⟨S_, .i32⟩
  | .hbm, ⟨40, _⟩ => ⟨S_, .i32⟩
  | .local _ .vmem, ⟨0, _⟩ => ⟨S1024x2048, .bf16⟩
  | .local _ .vmem, ⟨1, _⟩ => ⟨S640x2048, .f32⟩
  | .local _ .vmem, ⟨2, _⟩ => ⟨S640x2048, .f32⟩
  | .local _ .vmem, ⟨3, _⟩ => ⟨S1024x1, .i32⟩
  | .local _ .vmem, ⟨4, _⟩ => ⟨S1024x1, .i32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_c_3 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v9 : Ref sig .tc := ⟨.hbm, 24, rfl⟩
abbrev main_c_4 : Ref sig .tc := ⟨.hbm, 25, rfl⟩
abbrev main_call3_v0 : Ref sig .tc := ⟨.hbm, 26, rfl⟩
abbrev main_call3_v1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_call4_v0 : Ref sig .tc := ⟨.hbm, 33, rfl⟩
abbrev main_call4_v1 : Ref sig .tc := ⟨.hbm, 34, rfl⟩
abbrev main_v14 : Ref sig .tc := ⟨.hbm, 35, rfl⟩
abbrev main_cst_5 : Ref sig .tc := ⟨.hbm, 36, rfl⟩
abbrev main_v15 : Ref sig .tc := ⟨.hbm, 37, rfl⟩
abbrev main_v16 : Ref sig .tc := ⟨.hbm, 38, rfl⟩
abbrev main_c_6 : Ref sig .tc := ⟨.hbm, 39, rfl⟩
abbrev main_v17 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v46 : BitVec 1 := Scalar.cmpi .eq arg1 c49_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S640x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S1x2048x2048_S1x2047x2048_0_0_0 : S1x2048x2048.Slices ![0, 0, 0] S1x2047x2048
  shapeCasts_S1x2047x2048_S2047x2048 : S1x2047x2048.ShapeCasts S2047x2048
  slices_S1x2048_S1x2047_0_1 : S1x2048.Slices ![0, 1] S1x2047
  shapeCasts_S1x2047_S2047 : S1x2047.ShapeCasts S2047
  bitsLt_bf16_f32 : FTy.bits .bf16 < FTy.bits .f32
  pads_S2047x2048_S2048x2048_010_000 : S2047x2048.Pads (![0, 0] : Fin 2 → Nat) ![1, 0] ![0, 0] S2048x2048
  h_S_ : 0 < S_.numel
  pads_S2047_S2048_010 : S2047.Pads (![0] : Fin 1 → Nat) ![1] ![0] S2048
  bcast_S_S2048 : S_.BroadcastsInDim S2048 (![] : Fin 0 → Fin S2048.rank)
  shapeCasts_S2048_S2048x1 : S2048.ShapeCasts S2048x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S640x2048_S640x2048_0_0 : ∀ a, (![0, 0] : Fin 2 → Nat) a + S640x2048.size a ≤ S640x2048.size a
  h_S640x2048 : 0 < S640x2048.numel
  iota_S1024x640_d1_w32 : S1024x640.Iotas .tc 32 [1]
  broadcasts_S1024x1_S1024x640 : S1024x1.Broadcasts S1024x640
  reduces_S1024x640_S1024 : S1024x640.Reduces [1] S1024
  shapeCasts_S1024_S1024x1 : S1024.ShapeCasts S1024x1
  shapeCasts_S2048x1_S2048 : S2048x1.ShapeCasts S2048
  reducesTo_S2048_S_d0 : S2048.ReducesTo [0] S_
  natLt_1_32 : 1 < 32
  dot_S1024x2048_S640x2048_S1024x640_1_1_0_0_n_n_wf : DotDims.WF S1024x2048 S640x2048 S1024x640 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S2048x2048.size a
  hwx0_0 : ∀ i : grid0.Coords, EltTy.bits .bf16 = 32 ∨ (Rect.block (s := S2048x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x2048.size a ≤ S32000x2048.size a
  hwx0_1 : ∀ i : grid0.Coords, EltTy.bits .f32 = 32 ∨ (Rect.block (s := S32000x2048) S640x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .i32 = 32 ∨ (Rect.block (s := S2048x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S2048x1.size a
  hwx0_3 : ∀ i : grid0.Coords, EltTy.bits .f32 = 32 ∨ (Rect.block (s := S2048x1) S1024x1.size (cc0_transform_3 i) (hinb0_3 i)).WholeWords (EltTy.packing .f32)

variable [Facts₀]

def dot_S1024x2048_S640x2048_S1024x640_1_1_0_0_n_n : DotDims S1024x2048 S640x2048 S1024x640 where
  lhsContracting := [1]
  rhsContracting := [1]
  lhsNonContracting := [0]
  rhsNonContracting := [0]
  lhsBatch := []
  rhsBatch := []
  wf := dot_S1024x2048_S640x2048_S1024x640_1_1_0_0_n_n_wf

abbrev win0_0 : Pipeline.Window sig grid0 :=
  Pipeline.Window.ofSpec (Memref.whole main_v5) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S640x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1x2048x2048 : Shape := ⟨3, ![1, 2048, 2048]⟩
abbrev S1x2048 : Shape := ⟨2, ![1, 2048]⟩
abbrev S32000x2048 : Shape := ⟨2, ![32000, 2048]⟩
abbrev S1x2047x2048 : Shape := ⟨3, ![1, 2047, 2048]⟩
abbrev S1x2047 : Shape := ⟨2, ![1, 2047]⟩
abbrev S2047x2048 : Shape := ⟨2, ![2047, 2048]⟩
abbrev S2047 : Shape := ⟨1, ![2047]⟩
abbrev S2047x32000 : Shape := ⟨2, ![2047, 32000]⟩
abbrev S_ : Shape := ⟨0, ![]⟩
abbrev S2047x1 : Shape := ⟨2, ![2047, 1]⟩
abbrev S2047x1x1 : Shape := ⟨3, ![2047, 1, 1]⟩
abbrev S1 : Shape := ⟨1, ![1]⟩
abbrev S1x1x1 : Shape := ⟨3, ![1, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .i32⟩
  | .hbm, ⟨2, _⟩ => ⟨S32000x2048, .f32⟩
  | .hbm, ⟨3, _⟩ => ⟨S1x2047x2048, .f32⟩
  | .hbm, ⟨4, _⟩ => ⟨S1x2047, .i32⟩
  | .hbm, ⟨5, _⟩ => ⟨S2047x2048, .f32⟩
  | .hbm, ⟨6, _⟩ => ⟨S2047, .i32⟩
  | .hbm, ⟨7, _⟩ => ⟨S2047x32000, .f32⟩
  | .hbm, ⟨8, _⟩ => ⟨S_, .f32⟩
  | .hbm, ⟨9, _⟩ => ⟨S2047, .f32⟩
  | .hbm, ⟨10, _⟩ => ⟨S_, .f32⟩
  | .hbm, ⟨11, _⟩ => ⟨S2047, .f32⟩
  | .hbm, ⟨12, _⟩ => ⟨S2047, .f32⟩
  | .hbm, ⟨13, _⟩ => ⟨S2047x1, .f32⟩
  | .hbm, ⟨14, _⟩ => ⟨S2047x32000, .f32⟩
  | .hbm, ⟨15, _⟩ => ⟨S2047x32000, .f32⟩
  | .hbm, ⟨16, _⟩ => ⟨S2047x32000, .f32⟩
  | .hbm, ⟨17, _⟩ => ⟨S_, .f32⟩
  | .hbm, ⟨18, _⟩ => ⟨S2047, .f32⟩
  | .hbm, ⟨19, _⟩ => ⟨S2047x1, .f32⟩
  | .hbm, ⟨20, _⟩ => ⟨S2047x1, .f32⟩
  | .hbm, ⟨21, _⟩ => ⟨S2047x32000, .f32⟩
  | .hbm, ⟨22, _⟩ => ⟨S2047x32000, .f32⟩
  | .hbm, ⟨23, _⟩ => ⟨S_, .i32⟩
  | .hbm, ⟨24, _⟩ => ⟨S2047, .i32⟩
  | .hbm, ⟨25, _⟩ => ⟨S2047, .i1⟩
  | .hbm, ⟨26, _⟩ => ⟨S_, .i32⟩
  | .hbm, ⟨27, _⟩ => ⟨S_, .i32⟩
  | .hbm, ⟨28, _⟩ => ⟨S2047, .i32⟩
  | .hbm, ⟨29, _⟩ => ⟨S2047, .i32⟩
  | .hbm, ⟨30, _⟩ => ⟨S2047x1, .i32⟩
  | .hbm, ⟨31, _⟩ => ⟨S_, .i32⟩
  | .hbm, ⟨32, _⟩ => ⟨S2047x1, .i32⟩
  | .hbm, ⟨33, _⟩ => ⟨S2047x1, .i1⟩
  | .hbm, ⟨34, _⟩ => ⟨S_, .i32⟩
  | .hbm, ⟨35, _⟩ => ⟨S2047x1, .i32⟩
  | .hbm, ⟨36, _⟩ => ⟨S2047x1, .i32⟩
  | .hbm, ⟨37, _⟩ => ⟨S2047x1, .i32⟩
  | .hbm, ⟨38, _⟩ => ⟨S2047x1x1, .i32⟩
  | .hbm, ⟨39, _⟩ => ⟨S1, .i32⟩
  | .hbm, ⟨40, _⟩ => ⟨S_, .i32⟩
  | .hbm, ⟨41, _⟩ => ⟨S2047x1x1, .i32⟩
  | .hbm, ⟨42, _⟩ => ⟨S2047x1x1, .i1⟩
  | .hbm, ⟨43, _⟩ => ⟨S1x1x1, .i32⟩
  | .hbm, ⟨44, _⟩ => ⟨S2047x1x1, .i32⟩
  | .hbm, ⟨45, _⟩ => ⟨S2047x1x1, .i1⟩
  | .hbm, ⟨46, _⟩ => ⟨S2047x1x1, .i1⟩
  | .hbm, ⟨47, _⟩ => ⟨S_, .i1⟩
  | .hbm, ⟨48, _⟩ => ⟨S2047x1, .i1⟩
  | .hbm, ⟨49, _⟩ => ⟨S2047x1, .f32⟩
  | .hbm, ⟨50, _⟩ => ⟨S_, .f32⟩
  | .hbm, ⟨51, _⟩ => ⟨S2047x1, .f32⟩
  | .hbm, ⟨52, _⟩ => ⟨S2047x1, .f32⟩
  | .hbm, ⟨53, _⟩ => ⟨S2047, .f32⟩
  | .hbm, ⟨54, _⟩ => ⟨S2047, .f32⟩
  | .hbm, ⟨55, _⟩ => ⟨S_, .f32⟩
  | .hbm, ⟨56, _⟩ => ⟨S_, .f32⟩
  | .hbm, ⟨57, _⟩ => ⟨S2047, .f32⟩
  | .hbm, ⟨58, _⟩ => ⟨S2047, .f32⟩
  | .hbm, ⟨59, _⟩ => ⟨S_, .f32⟩
  | .hbm, ⟨60, _⟩ => ⟨S_, .f32⟩
  | .hbm, ⟨61, _⟩ => ⟨S2047, .i32⟩
  | .hbm, ⟨62, _⟩ => ⟨S_, .i32⟩
  | .hbm, ⟨63, _⟩ => ⟨S_, .i32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_v8 : Ref sig .tc := ⟨.hbm, 29, rfl⟩
abbrev main_v9 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_cst : Ref sig .tc := ⟨.hbm, 50, rfl⟩
abbrev main_call2_v14 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_cst : Ref sig .tc := ⟨.hbm, 55, rfl⟩
abbrev main_call3_v0 : Ref sig .tc := ⟨.hbm, 56, rfl⟩
abbrev main_call3_v1 : Ref sig .tc := ⟨.hbm, 57, rfl⟩
abbrev main_v13 : Ref sig .tc := ⟨.hbm, 58, rfl⟩
abbrev main_cst_1 : Ref sig .tc := ⟨.hbm, 59, rfl⟩
abbrev main_v14 : Ref sig .tc := ⟨.hbm, 60, rfl⟩
abbrev main_v15 : Ref sig .tc := ⟨.hbm, 61, rfl⟩
abbrev main_c_2 : Ref sig .tc := ⟨.hbm, 62, rfl⟩
abbrev main_v16 : Ref sig .tc := ⟨.hbm, 63, rfl⟩

abbrev nD : Nat := 1
abbrev τ : Topo := Topo.v7x

variable {F : FTy → Type} [FloatOps F]

class Facts₀ : Prop where
  slices_S1x2048x2048_S1x2047x2048_0_0_0 : S1x2048x2048.Slices ![0, 0, 0] S1x2047x2048
  slices_S1x2048_S1x2047_0_1 : S1x2048.Slices ![0, 1] S1x2047
  shapeCasts_S1x2047x2048_S2047x2048 : S1x2047x2048.ShapeCasts S2047x2048
  shapeCasts_S1x2047_S2047 : S1x2047.ShapeCasts S2047
  reducesTo_S2047x32000_S2047_d1 : S2047x32000.ReducesTo [1] S2047
  h_S_ : 0 < S_.numel
  bcast_S_S2047 : S_.BroadcastsInDim S2047 (![] : Fin 0 → Fin S2047.rank)
  bcast_S2047_S2047x1_0 : S2047.BroadcastsInDim S2047x1 (![0] : Fin 1 → Fin S2047x1.rank)
  bcast_S2047x1_S2047x32000_0_1 : S2047x1.BroadcastsInDim S2047x32000 (![0, 1] : Fin 2 → Fin S2047x32000.rank)
  bcast_S_S2047x1 : S_.BroadcastsInDim S2047x1 (![] : Fin 0 → Fin S2047x1.rank)
  shapeCasts_S2047x1_S2047x1x1 : S2047x1.ShapeCasts S2047x1x1
  bcast_S_S2047x1x1 : S_.BroadcastsInDim S2047x1x1 (![] : Fin 0 → Fin S2047x1x1.rank)
  bcast_S1_S1x1x1_2 : S1.BroadcastsInDim S1x1x1 (![2] : Fin 1 → Fin S1x1x1.rank)
  bcast_S1x1x1_S2047x1x1_0_1_2 : S1x1x1.BroadcastsInDim S2047x1x1 (![0, 1, 2] : Fin 3 → Fin S2047x1x1.rank)
  reducesTo_S2047x1x1_S2047x1_d2 : S2047x1x1.ReducesTo [2] S2047x1
  shapeCasts_S2047x1_S2047 : S2047x1.ShapeCasts S2047
  reducesTo_S2047_S_d0 : S2047.ReducesTo [0] S_
  natLt_1_32 : 1 < 32
  dot_S2047x2048_S32000x2048_S2047x32000_1_1_0_0_n_n_wf : DotDims.WF S2047x2048 S32000x2048 S2047x32000 [1] [1] [0] [0] [] []
  gather_S2047x32000_S2047x1x1_S2047x1_n_1_0_0_1_2_11_wf : GatherDims.WF S2047x32000 S2047x1x1 S2047x1 [] [1] [0] [1] [0] 2 ![1, 1]

variable [Facts₀]

def dot_S2047x2048_S32000x2048_S2047x32000_1_1_0_0_n_n : DotDims S2047x2048 S32000x2048 S2047x32000 where
  lhsContracting := [1]
  rhsContracting := [1]
  lhsNonContracting := [0]
  rhsNonContracting := [0]
  lhsBatch := []
  rhsBatch := []
  wf := dot_S2047x2048_S32000x2048_S2047x32000_1_1_0_0_n_n_wf
def gather_S2047x32000_S2047x1x1_S2047x1_n_1_0_0_1_2_11 : GatherDims S2047x32000 S2047x1x1 S2047x1 where
  offsetDims := []
  collapsedSliceDims := [1]
  operandBatchingDims := [0]
  startIndicesBatchingDims := [0]
  startIndexMap := [1]
  indexVectorDim := 2
  sliceSizes := ![1, 1]
  wf := gather_S2047x32000_S2047x1x1_S2047x1_n_1_0_0_1_2_11_wf

class Facts : Prop extends Facts₀ where

variable [Facts]
-- ==== Proof.Pieces.lean ====
import proofs.«405938_j53068615910223_3_alg».proof.Proof.Gen.KernelIdeal.Frame
import Idealize.ShloMosaic.Lib.Pipeline.Value
import Idealize.ShloMosaic.Lib.Tactic

/-!
# What each control case of the body leaves, as payload terms

From a block `x0` of activations, a block `x1` of weights and the labels `x2`, the body forms the logits
`z = x0 · x1ᵀ` and updates three carried columns: the running maximum `m`, the running sum `l` of
`exp (z - m)`, and the picked logit `t`. Every store of a column covers it whole, so what a case leaves in a
column is the payload of the case's LAST store to it, with each of the payload's reads replaced by what was
there when it was read: the reset values `-∞`, `0`, `0` at the first point, the contents the point found
elsewhere. At the last point the output block takes `m + log l - t` of the columns just updated.

The ten equations (three columns at each of the three kinds of point, and the output block at the last) hold at
every float family `F`: they only say which value each read sees.
-/

set_option maxRecDepth 16384

noncomputable section

open Idealize.ShloMosaic Idealize.ShloMosaic.TcCoe Idealize.SL.Sem

namespace Cert.KernelIdeal.Sweep

open Cert.KernelIdeal Cert.KernelIdeal.Gen

variable {F : FTy → Type} [FloatOps F]

/-- The origin of a rank-2 block is the zero offset. -/
theorem hz : (![0, 0] : Fin 2 → Nat) = fun _ => 0 := funext fun a => by fin_cases a <;> rfl

/-! ## The first point: reset, then update -/

/-- First point, running maximum: the column is reset to `-∞` and then updated, so it ends as the update's payload read at the reset value — `max (-∞) (rowmax z)`. -/
theorem sout_A_0 (c : Dev nD) (i : grid0.Coords) (arg2 : Memref sig .tc .vmem S1024x2048 .bf16) (harg2 : arg2.IsWhole) (arg3 : Memref sig .tc .vmem S640x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x2048 .bf16) (x1 : Vec F S640x2048 .f32) (x2 : Vec F S1024x1 .i32) :
    sout0_A_0 c i arg2 harg2 arg3 harg3 arg4 harg4 arg5 harg5 arg6 harg6 arg7 harg7 arg8 harg8 hc0 hc1 x0 x1 x2 = k0_pay2 (k0_pay9 x0 x1 k0_pay4) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readAt_eq_ld, View.readCov_unit_zero (S := S1024x1) _ hz,
    harg2.read_unread, harg3.read_unread, harg4.read_unread,
    harg5.read_unread, harg6.read_unread, harg7.read_unread, harg8.read_unread,
    View.ld_unit_zero (S := S1024x2048) hz, View.ld_unit_zero (S := S640x2048) hz,
    View.ld_unit_zero (S := S1024x1) hz, shapeCast_self]

/-- First point, running sum: the column is reset to `0` and the maximum to `-∞`, then updated, so it ends as `exp (m - m') * l + rowsum (exp (z - m'))` read at `m = -∞`, `l = 0`, with `m'` the new maximum. -/
theorem sout_A_1 (c : Dev nD) (i : grid0.Coords) (arg2 : Memref sig .tc .vmem S1024x2048 .bf16) (harg2 : arg2.IsWhole) (arg3 : Memref sig .tc .vmem S640x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x2048 .bf16) (x1 : Vec F S640x2048 .f32) (x2 : Vec F S1024x1 .i32) :
    sout0_A_1 c i arg2 harg2 arg3 harg3 arg4 harg4 arg5 harg5 arg6 harg6 arg7 harg7 arg8 harg8 hc0 hc1 x0 x1 x2 = k0_pay1 (k0_pay10 x0 x1 k0_pay4 k0_pay4) (k0_pay11 x0 x1 k0_pay4) k0_pay5 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readAt_eq_ld, View.readCov_unit_zero (S := S1024x1) _ hz,
    harg2.read_unread, harg3.read_unread, harg4.read_unread,
    harg5.read_unread, harg6.read_unread, harg7.read_unread, harg8.read_unread,
    View.ld_unit_zero (S := S1024x2048) hz, View.ld_unit_zero (S := S640x2048) hz,
    View.ld_unit_zero (S := S1024x1) hz, shapeCast_self]

/-- First point, picked logit: the column is reset to `0` and then updated, so it ends as `0 + rowsum (select (col = label - 640 * j) z 0)`, `j` the second grid coordinate. -/
theorem sout_A_2 (c : Dev nD) (i : grid0.Coords) (arg2 : Memref sig .tc .vmem S1024x2048 .bf16) (harg2 : arg2.IsWhole) (arg3 : Memref sig .tc .vmem S640x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x2048 .bf16) (x1 : Vec F S640x2048 .f32) (x2 : Vec F S1024x1 .i32) :
    sout0_A_2 c i arg2 harg2 arg3 harg3 arg4 harg4 arg5 harg5 arg6 harg6 arg7 harg7 arg8 harg8 hc0 hc1 x0 x1 x2 = k0_pay8 i x0 x1 x2 k0_pay6 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readAt_eq_ld, View.readCov_unit_zero (S := S1024x1) _ hz,
    harg2.read_unread, harg3.read_unread, harg4.read_unread,
    harg5.read_unread, harg6.read_unread, harg7.read_unread, harg8.read_unread,
    View.ld_unit_zero (S := S1024x2048) hz, View.ld_unit_zero (S := S640x2048) hz,
    View.ld_unit_zero (S := S1024x1) hz, shapeCast_self]

/-! ## An interior point: update of what the point found -/

/-- Interior point, running maximum: one covering store, whose payload reads the maximum the point found — `max m (rowmax z)`. -/
theorem sout_B_0 (c : Dev nD) (i : grid0.Coords) (arg2 : Memref sig .tc .vmem S1024x2048 .bf16) (harg2 : arg2.IsWhole) (arg3 : Memref sig .tc .vmem S640x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x2048 .bf16) (x1 : Vec F S640x2048 .f32) (x2 : Vec F S1024x1 .i32) (xs0 : Vec F S1024x1 .f32) (xs1 : Vec F S1024x1 .f32) (xs2 : Vec F S1024x1 .f32) :
    sout0_B_0 c i arg2 harg2 arg3 harg3 arg4 harg4 arg5 harg5 arg6 harg6 arg7 harg7 arg8 harg8 hc0 hc1 x0 x1 x2 xs0 xs1 xs2 = k0_pay2 (k0_pay9 x0 x1 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, View.readCov_unit_zero (S := S1024x1) _ hz,
    harg2.read_unread, harg3.read_unread, harg4.read_unread,
    harg5.read_unread, harg6.read_unread, harg7.read_unread, harg8.read_unread,
    View.ld_unit_zero (S := S1024x2048) hz, View.ld_unit_zero (S := S640x2048) hz,
    View.ld_unit_zero (S := S1024x1) hz, shapeCast_self]

/-- Interior point, running sum: one covering store, whose payload reads the maximum and the sum the point found — `exp (m - m') * l + rowsum (exp (z - m'))`. -/
theorem sout_B_1 (c : Dev nD) (i : grid0.Coords) (arg2 : Memref sig .tc .vmem S1024x2048 .bf16) (harg2 : arg2.IsWhole) (arg3 : Memref sig .tc .vmem S640x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x2048 .bf16) (x1 : Vec F S640x2048 .f32) (x2 : Vec F S1024x1 .i32) (xs0 : Vec F S1024x1 .f32) (xs1 : Vec F S1024x1 .f32) (xs2 : Vec F S1024x1 .f32) :
    sout0_B_1 c i arg2 harg2 arg3 harg3 arg4 harg4 arg5 harg5 arg6 harg6 arg7 harg7 arg8 harg8 hc0 hc1 x0 x1 x2 xs0 xs1 xs2 = k0_pay1 (k0_pay10 x0 x1 xs0 xs0) (k0_pay11 x0 x1 xs0) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, View.readCov_unit_zero (S := S1024x1) _ hz,
    harg2.read_unread, harg3.read_unread, harg4.read_unread,
    harg5.read_unread, harg6.read_unread, harg7.read_unread, harg8.read_unread,
    View.ld_unit_zero (S := S1024x2048) hz, View.ld_unit_zero (S := S640x2048) hz,
    View.ld_unit_zero (S := S1024x1) hz, shapeCast_self]

/-- Interior point, picked logit: one covering store, whose payload reads the value the point found — `t + rowsum (select (col = label - 640 * j) z 0)`, `j` the second grid coordinate. -/
theorem sout_B_2 (c : Dev nD) (i : grid0.Coords) (arg2 : Memref sig .tc .vmem S1024x2048 .bf16) (harg2 : arg2.IsWhole) (arg3 : Memref sig .tc .vmem S640x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x2048 .bf16) (x1 : Vec F S640x2048 .f32) (x2 : Vec F S1024x1 .i32) (xs0 : Vec F S1024x1 .f32) (xs1 : Vec F S1024x1 .f32) (xs2 : Vec F S1024x1 .f32) :
    sout0_B_2 c i arg2 harg2 arg3 harg3 arg4 harg4 arg5 harg5 arg6 harg6 arg7 harg7 arg8 harg8 hc0 hc1 x0 x1 x2 xs0 xs1 xs2 = k0_pay8 i x0 x1 x2 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, View.readCov_unit_zero (S := S1024x1) _ hz,
    harg2.read_unread, harg3.read_unread, harg4.read_unread,
    harg5.read_unread, harg6.read_unread, harg7.read_unread, harg8.read_unread,
    View.ld_unit_zero (S := S1024x2048) hz, View.ld_unit_zero (S := S640x2048) hz,
    View.ld_unit_zero (S := S1024x1) hz, shapeCast_self]

/-! ## The last point: the same update, then the loss is stored -/

/-- Last point, running maximum: the same update as at an interior point. -/
theorem sout_C_0 (c : Dev nD) (i : grid0.Coords) (arg2 : Memref sig .tc .vmem S1024x2048 .bf16) (harg2 : arg2.IsWhole) (arg3 : Memref sig .tc .vmem S640x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x2048 .bf16) (x1 : Vec F S640x2048 .f32) (x2 : Vec F S1024x1 .i32) (xs0 : Vec F S1024x1 .f32) (xs1 : Vec F S1024x1 .f32) (xs2 : Vec F S1024x1 .f32) :
    sout0_C_0 c i arg2 harg2 arg3 harg3 arg4 harg4 arg5 harg5 arg6 harg6 arg7 harg7 arg8 harg8 hc0 hc1 x0 x1 x2 xs0 xs1 xs2 = k0_pay2 (k0_pay9 x0 x1 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, View.readCov_unit_zero (S := S1024x1) _ hz,
    harg2.read_unread, harg3.read_unread, harg4.read_unread,
    harg5.read_unread, harg6.read_unread, harg7.read_unread, harg8.read_unread,
    View.ld_unit_zero (S := S1024x2048) hz, View.ld_unit_zero (S := S640x2048) hz,
    View.ld_unit_zero (S := S1024x1) hz, shapeCast_self]

/-- Last point, running sum: the same update as at an interior point. -/
theorem sout_C_1 (c : Dev nD) (i : grid0.Coords) (arg2 : Memref sig .tc .vmem S1024x2048 .bf16) (harg2 : arg2.IsWhole) (arg3 : Memref sig .tc .vmem S640x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x2048 .bf16) (x1 : Vec F S640x2048 .f32) (x2 : Vec F S1024x1 .i32) (xs0 : Vec F S1024x1 .f32) (xs1 : Vec F S1024x1 .f32) (xs2 : Vec F S1024x1 .f32) :
    sout0_C_1 c i arg2 harg2 arg3 harg3 arg4 harg4 arg5 harg5 arg6 harg6 arg7 harg7 arg8 harg8 hc0 hc1 x0 x1 x2 xs0 xs1 xs2 = k0_pay1 (k0_pay10 x0 x1 xs0 xs0) (k0_pay11 x0 x1 xs0) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, View.readCov_unit_zero (S := S1024x1) _ hz,
    harg2.read_unread, harg3.read_unread, harg4.read_unread,
    harg5.read_unread, harg6.read_unread, harg7.read_unread, harg8.read_unread,
    View.ld_unit_zero (S := S1024x2048) hz, View.ld_unit_zero (S := S640x2048) hz,
    View.ld_unit_zero (S := S1024x1) hz, shapeCast_self]

/-- Last point, picked logit: the same update as at an interior point. -/
theorem sout_C_2 (c : Dev nD) (i : grid0.Coords) (arg2 : Memref sig .tc .vmem S1024x2048 .bf16) (harg2 : arg2.IsWhole) (arg3 : Memref sig .tc .vmem S640x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x2048 .bf16) (x1 : Vec F S640x2048 .f32) (x2 : Vec F S1024x1 .i32) (xs0 : Vec F S1024x1 .f32) (xs1 : Vec F S1024x1 .f32) (xs2 : Vec F S1024x1 .f32) :
    sout0_C_2 c i arg2 harg2 arg3 harg3 arg4 harg4 arg5 harg5 arg6 harg6 arg7 harg7 arg8 harg8 hc0 hc1 x0 x1 x2 xs0 xs1 xs2 = k0_pay8 i x0 x1 x2 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, View.readCov_unit_zero (S := S1024x1) _ hz,
    harg2.read_unread, harg3.read_unread, harg4.read_unread,
    harg5.read_unread, harg6.read_unread, harg7.read_unread, harg8.read_unread,
    View.ld_unit_zero (S := S1024x2048) hz, View.ld_unit_zero (S := S640x2048) hz,
    View.ld_unit_zero (S := S1024x1) hz, shapeCast_self]

/-- Last point, output block: the loss `m' + log l' - t'`, read at the three columns as the updates of this same point just left them (each load after a covering store reads that store's payload). -/
theorem out_C_3 (c : Dev nD) (i : grid0.Coords) (arg2 : Memref sig .tc .vmem S1024x2048 .bf16) (harg2 : arg2.IsWhole) (arg3 : Memref sig .tc .vmem S640x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x2048 .bf16) (x1 : Vec F S640x2048 .f32) (x2 : Vec F S1024x1 .i32) (xs0 : Vec F S1024x1 .f32) (xs1 : Vec F S1024x1 .f32) (xs2 : Vec F S1024x1 .f32) :
    out0_C_3 c i arg2 harg2 arg3 harg3 arg4 harg4 arg5 harg5 arg6 harg6 arg7 harg7 arg8 harg8 hc0 hc1 x0 x1 x2 xs0 xs1 xs2 = k0_pay3 (k0_pay2 (k0_pay9 x0 x1 xs0)) (k0_pay1 (k0_pay10 x0 x1 xs0 xs0) (k0_pay11 x0 x1 xs0) xs1) (k0_pay8 i x0 x1 x2 xs2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, View.readCov_unit_zero (S := S1024x1) _ hz,
    harg2.read_unread, harg3.read_unread, harg4.read_unread,
    harg5.read_unread, harg6.read_unread, harg7.read_unread, harg8.read_unread,
    View.ld_unit_zero (S := S1024x2048) hz, View.ld_unit_zero (S := S640x2048) hz,
    View.ld_unit_zero (S := S1024x1) hz, shapeCast_self]

end Cert.KernelIdeal.Sweep

end
-- ==== Proof.Payload.lean ====
/-
  The kernel body's arithmetic read at one row, at the ideal float values (a float is an extended real, every
  operation exact, a format change the identity).

  One grid point holds a block of 1024 rows of hidden states (each 2048 long) and a block of 640 rows of weights.
  The body forms the 1024 × 640 block of logits, row r against weight row j: blk r j = ∑ k, x0 (r, k) * x1 (j, k).
  Per row r it then updates three running numbers: the maximum (with the block's largest logit), the sum of
  exponentials shifted by the new maximum (the old sum rescaled by exp (old max - new max), plus the block's), and
  the logit picked at the row's label column (the block's logits masked by "column = label - block offset", summed).
  At the last block it writes max + log sum - pick. Each stored value is read here at the index (r, 0) of its
  1024 × 1 column, as a formula in the loaded values at that row.
-/
import proofs.«405938_j53068615910223_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Sweep

open Cert.KernelIdeal Cert.KernelIdeal.Gen Idealize.ShloMosaic Idealize.ShloMosaic.ValueIdx

/-! ## Layout: a column vector of 1024 rows -/

/-- A vector of 1024 entries viewed as a 1024 × 1 column reads, at (r, u), the entry r. -/
theorem shapeCast_col_apply {α : Type} (v : S1024.Idx → α) (h : S1024.ShapeCasts S1024x1) (r : Fin 1024) (u : Fin 1) :
    shapeCast S1024x1 v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- A 1024 × 1 column broadcast along 640 columns reads, at (r, j), the column's entry at row r. -/
theorem broadcastTo_col_apply {α : Type} (v : S1024x1.Idx → α) (h : S1024x1.Broadcasts S1024x640) (r : Fin 1024) (j : Fin 640) :
    broadcastTo S1024x640 v h (ix2 r j) = v (ix2 r (0 : Fin 1)) := by
  refine broadcastTo_apply v h (ix2 r j) (ix2 r (0 : Fin 1)) fun ax => ?_
  match ax with
  | ⟨0, _⟩ => show r.val = if (1024 : Nat) = 1 then 0 else r.val; rw [if_neg (by decide)]
  | ⟨1, _⟩ => show 0 = if (1 : Nat) = 1 then 0 else j.val; rw [if_pos rfl]

/-! ## The lane reductions at a row -/

/-- The row index r with the column j put back on the reduced axis is (r, j). -/
theorem lift_row (h : S1024x640.Reduces [1] S1024) (r : Fin 1024) (j : Fin 640) :
    h.lift (ix1 r) j = ix2 r j :=
  funext fun a => Fin.ext (by match a with | ⟨0, _⟩ => rfl | ⟨1, _⟩ => rfl)

/-- The f32 pattern of -∞ denotes the bottom extended real. -/
theorem ofBits_neg_inf_f32 : FloatOps.ofBits (F := Ideal) .f32 0xFF800000#32 = (⊥ : EReal) := by
  simp [Ideal.ofBits, Ideal.ieee]

/-- The sum along the 640 columns, at row r. -/
theorem rowSum_apply (src : FVec Ideal S1024x640 .f32) (hφ : FKind.Formats .f32)
    (hacc : (0x00000000#32 : BitVec 32) = 0x00000000#32) (r : Fin 1024) :
    multiReduction (F := Ideal) .add [1] S1024 src 0x00000000#32 reduces_S1024x640_S1024 hφ hacc (ix1 r)
      = ∑ j : Fin 640, src (ix2 r j) := by
  refine (Ideal.multiReduction_add_single src 0x00000000#32 reduces_S1024x640_S1024 hφ hacc (ix1 r)).trans ?_
  exact Finset.sum_congr rfl fun j _ => congrArg src (lift_row _ r j)

/-- The maximum along the 640 columns, at row r: the fold of max from -∞. -/
theorem rowMax_apply (src : FVec Ideal S1024x640 .f32) (hφ : FKind.Formats .f32)
    (hacc : (0xFF800000#32 : BitVec 32) = 0xFF800000#32) (r : Fin 1024) :
    multiReduction (F := Ideal) .maximumf [1] S1024 src 0xFF800000#32 reduces_S1024x640_S1024 hφ hacc (ix1 r)
      = (Finset.univ : Finset (Fin 640)).fold max ⊥ fun j => src (ix2 r j) := by
  refine (Ideal.multiReduction_maximumf_single src 0xFF800000#32 reduces_S1024x640_S1024 hφ hacc (ix1 r)).trans ?_
  rw [ofBits_neg_inf_f32]
  exact congrArg (fun f => (Finset.univ : Finset (Fin 640)).fold max ⊥ f) (funext fun j => congrArg src (lift_row _ r j))

/-! ## The block of logits -/

/-- The logit of row r of the hidden block against row j of the weight block. -/
def blk (x0 : FVec Ideal S1024x2048 .bf16) (x1 : FVec Ideal S640x2048 .f32) (r : Fin 1024) (j : Fin 640) : EReal :=
  ∑ k : Fin 2048, x0 (ix2 r k) * x1 (ix2 j k)

/-- The row's new running maximum: the old one against the largest logit of the block's row. -/
def newMax (x0 : FVec Ideal S1024x2048 .bf16) (x1 : FVec Ideal S640x2048 .f32) (s0 : FVec Ideal S1024x1 .f32) (r : Fin 1024) : EReal :=
  max (s0 (ix2 r 0)) ((Finset.univ : Finset (Fin 640)).fold max ⊥ fun j => blk x0 x1 r j)

/-- The left operand's row coordinate is the output's row … -/
theorem lhs_dot_0 (i : S1024x640.Idx) (q : dot_S1024x2048_S640x2048_S1024x640_1_1_0_0_n_n.contr.Idx) :
    (dot_S1024x2048_S640x2048_S1024x640_1_1_0_0_n_n.lhsIdx i q 0).val = (i 0).val := by
  unfold DotDims.lhsIdx
  rw [dif_neg (show ¬(0 : Fin S1024x2048.rank) ∈ dot_S1024x2048_S640x2048_S1024x640_1_1_0_0_n_n.lhsBatch by decide), dif_pos (show (0 : Fin S1024x2048.rank) ∈ dot_S1024x2048_S640x2048_S1024x640_1_1_0_0_n_n.lhsNonContracting by decide)]
  rfl
/-- … and its second coordinate the contraction's. -/
theorem lhs_dot_1 (i : S1024x640.Idx) (q : dot_S1024x2048_S640x2048_S1024x640_1_1_0_0_n_n.contr.Idx) :
    (dot_S1024x2048_S640x2048_S1024x640_1_1_0_0_n_n.lhsIdx i q 1).val = (q ⟨0, by decide⟩).val :=
  dot_S1024x2048_S640x2048_S1024x640_1_1_0_0_n_n.lhsIdx_val_of_single rfl i q
/-- The right operand's row coordinate is the output's column … -/
theorem rhs_dot_0 (i : S1024x640.Idx) (q : dot_S1024x2048_S640x2048_S1024x640_1_1_0_0_n_n.contr.Idx) :
    (dot_S1024x2048_S640x2048_S1024x640_1_1_0_0_n_n.rhsIdx i q 0).val = (i 1).val := by
  unfold DotDims.rhsIdx
  rw [dif_neg (show ¬(0 : Fin S640x2048.rank) ∈ dot_S1024x2048_S640x2048_S1024x640_1_1_0_0_n_n.rhsBatch by decide), dif_pos (show (0 : Fin S640x2048.rank) ∈ dot_S1024x2048_S640x2048_S1024x640_1_1_0_0_n_n.rhsNonContracting by decide)]
  rfl
/-- … and its second coordinate the contraction's. -/
theorem rhs_dot_1 (i : S1024x640.Idx) (q : dot_S1024x2048_S640x2048_S1024x640_1_1_0_0_n_n.contr.Idx) :
    (dot_S1024x2048_S640x2048_S1024x640_1_1_0_0_n_n.rhsIdx i q 1).val = (q ⟨0, by decide⟩).val :=
  dot_S1024x2048_S640x2048_S1024x640_1_1_0_0_n_n.rhsIdx_val_of_single rfl i q

/-- The product of the hidden block with the transposed weight block, into a zero accumulator, read at (r, j): the
    sum over the 2048 shared coordinates of the products. -/
theorem matmul_apply_row (a : FVec Ideal S1024x2048 .bf16) (b : FVec Ideal S640x2048 .bf16) (r : Fin 1024) (j : Fin 640) :
    matmul dot_S1024x2048_S640x2048_S1024x640_1_1_0_0_n_n none a b (constant (F := Ideal) S1024x640 .f32 0x00000000#32) (ix2 r j)
      = ∑ k : Fin 2048, a (ix2 r k) * b (ix2 j k) := by
  simp only [matmul]
  rw [Ideal.matmul_constant_zero_apply, ← Equiv.sum_comp (ValueIdx.contrEquiv1 dot_S1024x2048_S640x2048_S1024x640_1_1_0_0_n_n 2048 rfl rfl).symm]
  refine Finset.sum_congr rfl fun k _ => ?_
  have hk := ValueIdx.contrEquiv1_symm_val dot_S1024x2048_S640x2048_S1024x640_1_1_0_0_n_n 2048 rfl rfl k
  have el : dot_S1024x2048_S640x2048_S1024x640_1_1_0_0_n_n.lhsIdx (ix2 r j) ((ValueIdx.contrEquiv1 dot_S1024x2048_S640x2048_S1024x640_1_1_0_0_n_n 2048 rfl rfl).symm k) = ix2 r k := funext fun a => Fin.ext (by
    match a with
    | ⟨0, _⟩ => exact lhs_dot_0 _ _
    | ⟨1, _⟩ => exact (lhs_dot_1 _ _).trans hk)
  have er : dot_S1024x2048_S640x2048_S1024x640_1_1_0_0_n_n.rhsIdx (ix2 r j) ((ValueIdx.contrEquiv1 dot_S1024x2048_S640x2048_S1024x640_1_1_0_0_n_n 2048 rfl rfl).symm k) = ix2 j k := funext fun a => Fin.ext (by
    match a with
    | ⟨0, _⟩ => exact rhs_dot_0 _ _
    | ⟨1, _⟩ => exact (rhs_dot_1 _ _).trans hk)
  rw [el, er]

/-- The stored logits at (r, j). -/
theorem pay7_apply (x0 : FVec Ideal S1024x2048 .bf16) (x1 : FVec Ideal S640x2048 .f32) (r : Fin 1024) (j : Fin 640) :
    k0_pay7 (F := Ideal) x0 x1 (ix2 r j) = blk x0 x1 r j := by
  unfold k0_pay7 blk
  rw [shapeCast_self]
  exact matmul_apply_row x0 (truncf .bf16 x1 bitsLt_bf16_f32) r j

/-! ## The running maximum -/

/-- The new running maximum at row r. -/
theorem pay9_apply (x0 : FVec Ideal S1024x2048 .bf16) (x1 : FVec Ideal S640x2048 .f32) (s0 : FVec Ideal S1024x1 .f32) (r : Fin 1024) :
    k0_pay9 (F := Ideal) x0 x1 s0 (ix2 r 0) = newMax x0 x1 s0 r := by
  unfold k0_pay9 newMax
  rw [maximumf_apply, shapeCast_col_apply]
  refine congrArg (max (s0 (ix2 r 0))) ((rowMax_apply _ _ _ r).trans ?_)
  exact congrArg (fun f => (Finset.univ : Finset (Fin 640)).fold max ⊥ f) (funext fun j => pay7_apply x0 x1 r j)

/-- The old sum's rescaling factor at row r: exp (the value at r less the new maximum). -/
theorem pay10_apply (x0 : FVec Ideal S1024x2048 .bf16) (x1 : FVec Ideal S640x2048 .f32) (s0 t : FVec Ideal S1024x1 .f32) (r : Fin 1024) :
    k0_pay10 (F := Ideal) x0 x1 s0 t (ix2 r 0) = Ideal.exp (t (ix2 r 0) - newMax x0 x1 s0 r) := by
  unfold k0_pay10
  show Ideal.exp (t (ix2 r 0) - k0_pay9 (F := Ideal) x0 x1 s0 (ix2 r 0)) = _
  rw [pay9_apply]

/-- The block's shifted exponentials at (r, j). -/
theorem pay11_apply (x0 : FVec Ideal S1024x2048 .bf16) (x1 : FVec Ideal S640x2048 .f32) (s0 : FVec Ideal S1024x1 .f32) (r : Fin 1024) (j : Fin 640) :
    k0_pay11 (F := Ideal) x0 x1 s0 (ix2 r j) = Ideal.exp (blk x0 x1 r j - newMax x0 x1 s0 r) := by
  unfold k0_pay11
  show Ideal.exp (k0_pay7 (F := Ideal) x0 x1 (ix2 r j)
      - broadcastTo S1024x640 (k0_pay9 (F := Ideal) x0 x1 s0) broadcasts_S1024x1_S1024x640 (ix2 r j)) = _
  rw [broadcastTo_col_apply, pay7_apply, pay9_apply]

/-! ## The running sum of shifted exponentials -/

/-- The new running sum at row r: the old sum rescaled to the new maximum, plus the block's shifted exponentials. -/
theorem pay1_apply (x0 : FVec Ideal S1024x2048 .bf16) (x1 : FVec Ideal S640x2048 .f32) (s0 s1 : FVec Ideal S1024x1 .f32) (r : Fin 1024) :
    k0_pay1 (F := Ideal) (k0_pay10 x0 x1 s0 s0) (k0_pay11 x0 x1 s0) s1 (ix2 r 0)
      = Ideal.exp (s0 (ix2 r 0) - newMax x0 x1 s0 r) * s1 (ix2 r 0)
        + ∑ j : Fin 640, Ideal.exp (blk x0 x1 r j - newMax x0 x1 s0 r) := by
  unfold k0_pay1
  rw [shapeCast_self, addf_apply, mulf_apply, shapeCast_col_apply, pay10_apply]
  refine congrArg (_ + ·) ((rowSum_apply _ _ _ r).trans ?_)
  exact Finset.sum_congr rfl fun j _ => pay11_apply x0 x1 s0 r j

/-! ## The picked logit -/

/-- A select on an equality test of two words is the `if` on their equality. -/
theorem select_cmpi_eq {α : Type} {w : Nat} (a b : BitVec w) (A B : α) :
    Scalar.select (IntOp.cmpi .eq a b) A B = if a = b then A else B := by
  unfold Scalar.select IntOp.cmpi
  by_cases h : a = b
  · subst h; simp
  · have hb : (a == b) = false := by simpa using h
    simp [hb, h]

/-- The new running pick at row r: the old pick plus the block's logit at the column that equals the row's label
    less the block's first column (640 times the block's number), if there is one. -/
theorem pay8_apply (i : grid0.Coords) (x0 : FVec Ideal S1024x2048 .bf16) (x1 : FVec Ideal S640x2048 .f32)
    (x2 : IVec S1024x1 32) (s2 : FVec Ideal S1024x1 .f32) (r : Fin 1024) :
    k0_pay8 (F := Ideal) i x0 x1 x2 s2 (ix2 r 0)
      = s2 (ix2 r 0) + ∑ j : Fin 640,
          (if BitVec.ofNat 32 j.val = x2 (ix2 r 0) - BitVec.ofNat 32 (i 1).val * 640#32 then blk x0 x1 r j else 0) := by
  unfold k0_pay8
  rw [shapeCast_self, addf_apply, shapeCast_col_apply]
  refine congrArg (_ + ·) ((rowSum_apply _ _ _ r).trans ?_)
  refine Finset.sum_congr rfl fun j _ => ?_
  rw [select_apply, broadcast_apply, pay7_apply]
  show Scalar.select (IntOp.cmpi .eq (iota .tc S1024x640 32 [1] iota_S1024x640_d1_w32 (ix2 r j))
      (broadcastTo S1024x640 (subi (shapeCast S1024x1 x2 shapeCasts_S1024x1_S1024x1)
        (broadcast S1024x1 (Scalar.muli (BitVec.ofNat 32 (i 1).val) 640#32))) broadcasts_S1024x1_S1024x640 (ix2 r j)))
      (blk x0 x1 r j) (Ideal.ofBits .f32 0x00000000#32) = _
  rw [select_cmpi_eq, iota_single_apply, broadcastTo_col_apply, Ideal.ofBits_zero_f32, shapeCast_self]
  rfl

/-! ## The row's loss, and the stored constants -/

/-- At the last block: maximum plus the logarithm of the sum, less the pick. -/
theorem pay3_apply (a b c : FVec Ideal S1024x1 .f32) (r : Fin 1024) :
    k0_pay3 (F := Ideal) a b c (ix2 r 0) = a (ix2 r 0) + Ideal.log (b (ix2 r 0)) - c (ix2 r 0) := by
  unfold k0_pay3
  rfl

/-- The maximum is stored as it is. -/
theorem pay2_eq (v : FVec Ideal S1024x1 .f32) : k0_pay2 (F := Ideal) v = v := by
  unfold k0_pay2
  exact shapeCast_self v _

/-- The maximum is reset to -∞ … -/
theorem pay4_apply (r : Fin 1024) : k0_pay4 (F := Ideal) (ix2 r 0) = (⊥ : EReal) := by
  unfold k0_pay4
  rw [shapeCast_self, broadcast_apply]
  exact ofBits_neg_inf_f32

/-- … the sum to 0 … -/
theorem pay5_apply (r : Fin 1024) : k0_pay5 (F := Ideal) (ix2 r 0) = 0 := by
  unfold k0_pay5
  rw [shapeCast_self, broadcast_apply]
  exact Ideal.ofBits_zero_f32

/-- … and the pick to 0. -/
theorem pay6_apply (r : Fin 1024) : k0_pay6 (F := Ideal) (ix2 r 0) = 0 := by
  unfold k0_pay6
  rw [shapeCast_self, broadcast_apply]
  exact Ideal.ofBits_zero_f32

end Cert.KernelIdeal.Sweep

end
-- ==== Proof.OnlineLse.lean ====
/-
  The online log-sum-exp of one row, as algebra on the extended reals.

  A row of finite logits x 0, x 1, … is swept in consecutive blocks. The sweep carries three numbers: a running
  maximum m, a running sum l of exponentials shifted by m, and the logit t picked out at one column lb. After a
  prefix of n columns they satisfy: m is SOME real μ (which one never matters), l = ∑_{c<n} exp (x c - μ), and
  t = ∑_{c<n} [c = lb] x c. One block step keeps this (Acc'.step: rescaling by exp (μ - μ') turns exp (x c - μ)
  into exp (x c - μ'), since exp (a + b) = exp a * exp b on the reals); before the first block the numbers are
  (-∞, 0, 0), and exp (-∞ - μ') = 0 annihilates the empty sum. At the end m + log l - t = log ∑ exp (x c) - x lb,
  because μ + log ∑ exp (x c - μ) does not depend on μ. The same value is what a shifted log-softmax followed by
  a pick at lb and a negation gives (neg_logsoftmax_pick), for ANY real shift.
-/
import Idealize.ShloMosaic.PureOps.Ideal
import Idealize.ShloMosaic.PureOps.Ideal.Laws

noncomputable section

namespace Cert.OnlineLse

open Idealize.ShloMosaic

/-- The maximum of finitely many reals, folded from -∞ over a nonempty index set, is a real. -/
theorem fold_max_real {ι : Type} (s : Finset ι) (hs : s.Nonempty) (ρ : ι → ℝ) :
    ∃ β : ℝ, s.fold max (⊥ : EReal) (fun k => (ρ k : EReal)) = (β : EReal) := by
  obtain ⟨a, ha⟩ := hs
  have h1 : (ρ a : EReal) ≤ s.fold max (⊥ : EReal) (fun k => (ρ k : EReal)) :=
    (Finset.le_fold_max _).mpr (Or.inr ⟨a, ha, le_rfl⟩)
  have h2 : s.fold max (⊥ : EReal) (fun k => (ρ k : EReal)) < ⊤ :=
    (Finset.fold_max_lt _).mpr ⟨bot_lt_top, fun x _ => EReal.coe_lt_top _⟩
  exact ⟨_, (EReal.coe_toReal h2.ne (ne_of_gt (lt_of_lt_of_le (EReal.bot_lt_coe _) h1))).symm⟩

/-- A finite sum of real numbers, read in the extended reals. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The state of the sweep after the first n columns of the row x, with the column lb picked. -/
def Acc (x : ℕ → ℝ) (lb n : ℕ) (m l t : EReal) : Prop :=
  ∃ μ : ℝ, m = (μ : EReal)
    ∧ l = ((∑ c ∈ Finset.range n, Real.exp (x c - μ) : ℝ) : EReal)
    ∧ t = ((∑ c ∈ Finset.range n, (if c = lb then x c else 0) : ℝ) : EReal)

/-- The same, or the reset state (-∞, 0, 0) before any column. -/
def Acc' (x : ℕ → ℝ) (lb n : ℕ) (m l t : EReal) : Prop :=
  (n = 0 ∧ m = ⊥ ∧ l = 0 ∧ t = 0) ∨ Acc x lb n m l t

theorem sum_range_add_fin (f : ℕ → ℝ) (n b : ℕ) :
    ∑ c ∈ Finset.range (n + b), f c = ∑ c ∈ Finset.range n, f c + ∑ j : Fin b, f (n + j.val) := by
  rw [Finset.sum_range_add]
  exact congrArg₂ (· + ·) rfl (Finset.sum_range fun k => f (n + k))

/-- ONE BLOCK STEP. From the state after n columns (or the reset state), the block of the next b > 0 columns
    leaves the state after n + b columns: the new maximum, the old sum rescaled plus the block's exponentials, the
    old pick plus the block's. -/
theorem Acc'.step {x : ℕ → ℝ} {lb n : ℕ} {m l t : EReal} (h : Acc' x lb n m l t) (b : ℕ) (hb : 0 < b)
    (m' : EReal) (hm' : m' = max m ((Finset.univ : Finset (Fin b)).fold max (⊥ : EReal) fun j => (x (n + j.val) : EReal))) :
    Acc x lb (n + b) m'
      (Ideal.exp (m - m') * l + ∑ j : Fin b, Ideal.exp ((x (n + j.val) : EReal) - m'))
      (t + ∑ j : Fin b, (if n + j.val = lb then (x (n + j.val) : EReal) else 0)) := by
  obtain ⟨β, hβ⟩ := fold_max_real (Finset.univ : Finset (Fin b)) ⟨⟨0, hb⟩, Finset.mem_univ _⟩ (fun j => x (n + j.val))
  rw [hβ] at hm'
  have hpick : ∀ j : Fin b, (if n + j.val = lb then (x (n + j.val) : EReal) else 0)
      = ((if n + j.val = lb then x (n + j.val) else 0 : ℝ) : EReal) := fun j => by split <;> simp
  rcases h with ⟨hn, hm, hl, ht⟩ | ⟨μ, hm, hl, ht⟩
  · subst hn hm hl ht
    have e : m' = (β : EReal) := by rw [hm']; exact max_eq_right bot_le
    subst e
    refine ⟨β, rfl, ?_, ?_⟩
    · rw [mul_zero, zero_add, sum_range_add_fin, Finset.range_zero, Finset.sum_empty, zero_add, coe_sum]
      exact Finset.sum_congr rfl fun j _ => by rw [← EReal.coe_sub, Ideal.exp_coe]
    · rw [zero_add, sum_range_add_fin, Finset.range_zero, Finset.sum_empty, zero_add, coe_sum]
      exact Finset.sum_congr rfl fun j _ => hpick j
  · subst hm hl ht
    have e : m' = ((max μ β : ℝ) : EReal) := by rw [hm']; exact (EReal.coe_strictMono.monotone.map_max).symm
    subst e
    refine ⟨max μ β, rfl, ?_, ?_⟩
    · rw [sum_range_add_fin, EReal.coe_add, coe_sum Finset.univ]
      refine congrArg₂ (· + ·) ?_ ?_
      · rw [← EReal.coe_sub, Ideal.exp_coe, ← EReal.coe_mul, Finset.mul_sum]
        refine congrArg _ (Finset.sum_congr rfl fun c _ => ?_)
        rw [← Real.exp_add]; congr 1; ring
      · exact Finset.sum_congr rfl fun j _ => by rw [← EReal.coe_sub, Ideal.exp_coe]
    · rw [sum_range_add_fin, EReal.coe_add, coe_sum Finset.univ]
      exact congrArg₂ (· + ·) rfl (Finset.sum_congr rfl fun j _ => hpick j)

theorem Acc.toAcc' {x : ℕ → ℝ} {lb n : ℕ} {m l t : EReal} (h : Acc x lb n m l t) : Acc' x lb n m l t := Or.inr h

/-- log ∑ exp, the value the sweep computes. -/
def lse (x : ℕ → ℝ) (n : ℕ) : ℝ := Real.log (∑ c ∈ Finset.range n, Real.exp (x c))

theorem shifted_sum (x : ℕ → ℝ) (n : ℕ) (μ : ℝ) :
    ∑ c ∈ Finset.range n, Real.exp (x c - μ) = Real.exp (-μ) * ∑ c ∈ Finset.range n, Real.exp (x c) := by
  rw [Finset.mul_sum]
  exact Finset.sum_congr rfl fun c _ => by rw [← Real.exp_add]; congr 1; ring

theorem sum_exp_pos (x : ℕ → ℝ) (n : ℕ) (hn : 0 < n) (μ : ℝ) : 0 < ∑ c ∈ Finset.range n, Real.exp (x c - μ) :=
  Finset.sum_pos (fun c _ => Real.exp_pos _) ⟨0, Finset.mem_range.mpr hn⟩

/-- μ + log ∑ exp (x c - μ) = log ∑ exp (x c): the shift drops out. -/
theorem log_shifted (x : ℕ → ℝ) (n : ℕ) (hn : 0 < n) (μ : ℝ) :
    Ideal.log ((∑ c ∈ Finset.range n, Real.exp (x c - μ) : ℝ) : EReal) = ((lse x n - μ : ℝ) : EReal) := by
  have hpos := sum_exp_pos x n hn μ
  rw [Ideal.log_coe, if_neg (not_le.mpr hpos), shifted_sum]
  have h0 : 0 < ∑ c ∈ Finset.range n, Real.exp (x c) := by simpa using sum_exp_pos x n hn 0
  rw [Real.log_mul (Real.exp_pos _).ne' h0.ne', Real.log_exp]
  unfold lse; congr 1; ring

/-- THE END OF THE SWEEP: maximum plus log of the sum, minus the pick, is log ∑ exp minus the picked logit. -/
theorem Acc.final {x : ℕ → ℝ} {lb n : ℕ} {m l t : EReal} (h : Acc x lb n m l t) (hn : 0 < n) (hlb : lb < n) :
    m + Ideal.log l - t = ((lse x n - x lb : ℝ) : EReal) := by
  obtain ⟨μ, rfl, rfl, rfl⟩ := h
  rw [log_shifted x n hn μ, Finset.sum_ite_eq' (Finset.range n) lb x, if_pos (Finset.mem_range.mpr hlb),
    ← EReal.coe_add, ← EReal.coe_sub]
  congr 1; ring

/-- A log-softmax shifted by any real μ, picked at column k and negated, is the same number. -/
theorem neg_logsoftmax_pick (x : ℕ → ℝ) (n : ℕ) (hn : 0 < n) (μ : ℝ) (k : ℕ) :
    -(((x k : EReal) - (μ : EReal)) - Ideal.log (∑ c : Fin n, Ideal.exp ((x c.val : EReal) - (μ : EReal))))
      = ((lse x n - x k : ℝ) : EReal) := by
  have e : (∑ c : Fin n, Ideal.exp ((x c.val : EReal) - (μ : EReal)))
      = ((∑ c ∈ Finset.range n, Real.exp (x c - μ) : ℝ) : EReal) := by
    rw [coe_sum, Finset.sum_range (fun c => ((Real.exp (x c - μ) : ℝ) : EReal))]
    exact Finset.sum_congr rfl fun c _ => by rw [← EReal.coe_sub, Ideal.exp_coe]
  rw [e, log_shifted x n hn μ, ← EReal.coe_sub, ← EReal.coe_sub, ← EReal.coe_neg]
  congr 1; ring

end Cert.OnlineLse

end
-- ==== Proof.Loss.lean ====
/-
  The loss as one function of the three arrays.

  From hidden states h[1, 2048, 2048], labels l[1, 2048] and an output matrix w[32000, 2048]: row n (n < 2047) of
  the shifted problem pairs hidden row n with label l[0, n + 1]; its logits are x n c = ∑ₖ h[0, n, k] · w[c, k].
  A label equal to -100 marks a row that does not count. The loss is the sum over the counted rows of
  log ∑_c exp (x n c) - x n (label n); the count is the number of counted rows. A 2048th row, all zero and marked
  -100, may be appended without changing either (the row a padded program carries).

  Dom is the domain both programs are compared on: every entry of h and w a real number, every label either -100
  or a column index below 32000.
-/
import proofs.«405938_j53068615910223_3_alg».proof.Proof.OnlineLse
import Idealize.ShloMosaic.Lib.ValueIdx
import Idealize.ShloMosaic.PureOps.Reduce

noncomputable section

namespace Cert.Loss

open Idealize.ShloMosaic Idealize.ShloMosaic.ValueIdx

abbrev SH : Shape := ⟨3, ![1, 2048, 2048]⟩
abbrev SL : Shape := ⟨2, ![1, 2048]⟩
abbrev SW : Shape := ⟨2, ![32000, 2048]⟩

/-- The word of the label -100. -/
abbrev ignore : BitVec 32 := 4294967196#32

/-- Hidden row n at feature k; rows from 2047 on are the zero padding. -/
def hrow (h : SH.Idx → EReal) (n : ℕ) (k : Fin 2048) : EReal :=
  if hn : n < 2047 then h (ix3 (0 : Fin 1) (⟨n, by omega⟩ : Fin 2048) k) else 0

/-- The logit of row n at column c (zero outside the 32000 columns). -/
def logit (h : SH.Idx → EReal) (w : SW.Idx → EReal) (n c : ℕ) : EReal :=
  if hc : c < 32000 then ∑ k : Fin 2048, hrow h n k * w (ix2 (⟨c, hc⟩ : Fin 32000) k) else 0

/-- The same as a real number (the logits are real on Dom). -/
def x (h : SH.Idx → EReal) (w : SW.Idx → EReal) (n : ℕ) : ℕ → ℝ := fun c => (logit h w n c).toReal

/-- Row n's label: l[0, n + 1]; rows from 2047 on carry -100. -/
def lab (l : SL.Idx → BitVec 32) (n : ℕ) : BitVec 32 :=
  if hn : n < 2047 then l (ix2 (0 : Fin 1) (⟨n + 1, by omega⟩ : Fin 2048)) else ignore

/-- The column a row reads: its label, or column 0 for a row that does not count. -/
def col (l : SL.Idx → BitVec 32) (n : ℕ) : ℕ := if lab l n = ignore then 0 else (lab l n).toNat

/-- The same column as a 32-bit word: the label itself on a counted row, zero otherwise. -/
def slab (l : SL.Idx → BitVec 32) (n : ℕ) : BitVec 32 := if lab l n = ignore then 0#32 else lab l n

theorem col_eq (l : SL.Idx → BitVec 32) (n : ℕ) : col l n = (slab l n).toNat := by
  unfold col slab; split <;> rfl

/-- Row n's negative log-likelihood at its column. -/
def nll (h : SH.Idx → EReal) (l : SL.Idx → BitVec 32) (w : SW.Idx → EReal) (n : ℕ) : EReal :=
  ((OnlineLse.lse (x h w n) 32000 - x h w n (col l n) : ℝ) : EReal)

/-- The loss: the counted rows' negative log-likelihoods, summed. -/
def loss (h : SH.Idx → EReal) (l : SL.Idx → BitVec 32) (w : SW.Idx → EReal) : EReal :=
  ∑ n : Fin 2047, if lab l n.val = ignore then 0 else nll h l w n.val

/-- The number of counted rows, as a 32-bit word: ones added up from zero, in any order. -/
def count (l : SL.Idx → BitVec 32) : BitVec 32 :=
  (Finset.univ : Finset (Fin 2047)).fold IntOp.addi 0#32 fun n => if lab l n.val = ignore then 0#32 else 1#32

/-- The domain: real entries, labels -100 or a column. -/
structure Dom (h : SH.Idx → EReal) (l : SL.Idx → BitVec 32) (w : SW.Idx → EReal) : Prop where
  hfin : ∀ i, ∃ r : ℝ, h i = (r : EReal)
  wfin : ∀ i, ∃ r : ℝ, w i = (r : EReal)
  lrange : ∀ i, l i = ignore ∨ (l i).toNat < 32000

theorem hrow_real {h : SH.Idx → EReal} (hf : ∀ i, ∃ r : ℝ, h i = (r : EReal)) (n : ℕ) (k : Fin 2048) :
    ∃ r : ℝ, hrow h n k = (r : EReal) := by
  unfold hrow; split
  · exact hf _
  · exact ⟨0, rfl⟩

/-- On Dom every logit is a real number. -/
theorem logit_real {h : SH.Idx → EReal} {l : SL.Idx → BitVec 32} {w : SW.Idx → EReal} (hd : Dom h l w) (n c : ℕ) :
    logit h w n c = ((x h w n c : ℝ) : EReal) := by
  unfold x
  suffices hs : ∃ r : ℝ, logit h w n c = (r : EReal) by obtain ⟨r, hr⟩ := hs; rw [hr, EReal.toReal_coe]
  unfold logit; split
  · rename_i hc
    choose a ha using fun k : Fin 2048 => hrow_real hd.hfin n k
    choose b hb using fun k : Fin 2048 => hd.wfin (ix2 (⟨c, hc⟩ : Fin 32000) k)
    refine ⟨∑ k : Fin 2048, a k * b k, ?_⟩
    rw [OnlineLse.coe_sum]
    exact Finset.sum_congr rfl fun k _ => by rw [ha k, hb k, EReal.coe_mul]
  · exact ⟨0, rfl⟩

theorem lab_range {h : SH.Idx → EReal} {l : SL.Idx → BitVec 32} {w : SW.Idx → EReal} (hd : Dom h l w) (n : ℕ) :
    lab l n = ignore ∨ (lab l n).toNat < 32000 := by
  unfold lab; split
  · exact hd.lrange _
  · exact Or.inl rfl

theorem col_lt {h : SH.Idx → EReal} {l : SL.Idx → BitVec 32} {w : SW.Idx → EReal} (hd : Dom h l w) (n : ℕ) :
    col l n < 32000 := by
  unfold col; split
  · omega
  · rcases lab_range hd n with h' | h'
    · contradiction
    · exact h'

end Cert.Loss

end
-- ==== Proof.Prefix.lean ====
/-
  The arrays the kernel region finds, computed from the arguments.

  Before the region the program prepares three arrays from the hidden states h[1, 2048, 2048] and the labels
  l[1, 2048]:
  • the padded hidden rows [2048, 2048]: rows 0 … 2046 of the one batch entry of h (the last hidden row has no next
    token to predict), narrowed in float format, with one row of zeros appended;
  • the row-validity mask [2048]: from the labels shifted by one, l[0, 1 …], with one entry -100 appended, the bit
    "this entry is not -100";
  • the safe label column [2048, 1]: the same padded labels clipped to 0 … 31999, and set to 0 where the mask is
    off.
  Read at an index these are the loss specification's `hrow`, the test `lab = -100`, and `slab`: a format change
  is the identity on extended reals, the appended row is the integer 0 converted, and on a label that is -100 or
  a column index below 32000 the clip changes nothing where the mask is on.

  Each array is first identified with the composed term of the operations that write it, at any float family;
  each term is then read at an index.
-/
import proofs.«405938_j53068615910223_3_alg».proof.Proof.Gen.KernelIdeal.Frame
import proofs.«405938_j53068615910223_3_alg».proof.Proof.Loss
import Idealize.ShloMosaic.Lib.Pipeline.Value
import Idealize.ShloMosaic.Lib.StableHlo.Run
import Idealize.ShloMosaic.Lib.ValueIdx
import Idealize.ShloMosaic.Lib.ValueLayout
import Idealize.ShloMosaic.Lib.KernelVsHost
import Idealize.ShloMosaic.PureOps.Ideal.Laws
import Idealize.ShloMosaic.Lib.Tactic

set_option maxRecDepth 16384

noncomputable section

namespace Cert.KernelIdeal.Sweep

open Cert.KernelIdeal Cert.KernelIdeal.Gen Idealize.ShloMosaic Idealize.ShloMosaic.TcCoe Idealize.SL.Sem
open Idealize.ShloMosaic.ValueIdx

/-! ## The three arrays as terms of the arguments -/

section Terms
variable {F : FTy → Type} [FloatOps F]
variable (m : (ℓ : Loc nD τ sig) → Buf (Elt F) ℓ)

/-- Hidden rows 0 … 2046 of the one batch entry, as a matrix narrowed in float format, with one further row
    appended whose every entry is the integer 0 converted to a float. -/
def padHidden (h : FVec F S1x2048x2048 .f32) : FVec F S2048x2048 .bf16 :=
  pad S2048x2048 ![0, 0] ![1, 0] ![0, 0]
    (truncf .bf16 (shapeCast S2047x2048 (extractStridedSlice S1x2047x2048 ![0, 0, 0] h slices_S1x2048x2048_S1x2047x2048_0_0_0) shapeCasts_S1x2047x2048_S2047x2048) bitsLt_bf16_f32 : FVec F S2047x2048 .bf16)
    (sitofp .bf16 (constantI S_ 32 0#32) : FVec F S_ .bf16) pads_S2047x2048_S2048x2048_010_000 h_S_

/-- Labels 1 … 2047 of the one batch entry, as a vector, with one further entry -100 appended. -/
def padLabels (l : IVec S1x2048 32) : IVec S2048 32 :=
  pad S2048 ![0] ![1] ![0]
    (shapeCast S2047 (extractStridedSlice S1x2047 ![0, 1] l slices_S1x2048_S1x2047_0_1) shapeCasts_S1x2047_S2047)
    (constantI S_ 32 4294967196#32) pads_S2047_S2048_010 h_S_

/-- Which entries of a label vector differ from -100. -/
def validOf (p : IVec S2048 32) : IVec S2048 1 :=
  cmpi .ne p (broadcastInDim S2048 ![] bcast_S_S2048 (constantI S_ 32 4294967196#32))

/-- A label vector clipped to 0 … 31999, and zero where the label is -100, as a column. -/
def safeOf (p : IVec S2048 32) : IVec S2048x1 32 :=
  shapeCast S2048x1
    (select (validOf p)
      (minsi (broadcastInDim S2048 ![] bcast_S_S2048 (constantI S_ 32 31999#32))
        (maxsi (broadcastInDim S2048 ![] bcast_S_S2048 (constantI S_ 32 0#32)) p))
      (broadcastInDim S2048 ![] bcast_S_S2048 (constantI S_ 32 0#32)))
    shapeCasts_S2048_S2048x1

/-- The hidden-state window's array is the padded hidden rows of the first argument. -/
theorem V_hidden_term (c : Dev nD) :
    (V m c main_v5 : FVec F S2048x2048 .bf16) = padHidden (m ((c.tc : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results
  rfl

/-- The mask is the validity bits of the padded labels of the second argument. -/
theorem V0_valid_term (c : Dev nD) :
    (V0 m c (Proc.devRef .tc main_v8) : IVec S2048 1) = validOf (padLabels (m ((c.tc : Thread nD τ).loc main_arg1))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results
  rfl

/-- The label window's array is the safe column of the padded labels of the second argument. -/
theorem V_label_term (c : Dev nD) :
    (V m c main_v11 : IVec S2048x1 32) = safeOf (padLabels (m ((c.tc : Thread nD τ).loc main_arg1))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  simp only [StableHlo.TRef.ofBuf, StableHlo.TRef.toBuf, cast_eq, id_eq]
  rfl
end Terms

/-! ## The terms read at an index -/

section Reads

/-- Row n of the padded hidden rows at feature k: hidden row n for n < 2047, zero on the appended row
    (the integer word 0 converted to a float). A change of float format is the identity on extended reals. -/
theorem padHidden_apply (h : FVec Ideal S1x2048x2048 .f32) (n k : Fin 2048) :
    padHidden (F := Ideal) h (ix2 n k) = Cert.Loss.hrow h n.val k := by
  unfold padHidden Cert.Loss.hrow
  by_cases hn : n.val < 2047
  · rw [dif_pos hn]
    refine (pad_apply_of_inside _ _ _ _ _ pads_S2047x2048_S2048x2048_010_000 h_S_ (ix2 n k)
      (ix2 (⟨n.val, hn⟩ : Fin 2047) k) (fun a => ?_)).trans ?_
    · match a with
      | ⟨0, _⟩ => show n.val = 0 + n.val * (0 + 1); omega
      | ⟨1, _⟩ => show k.val = 0 + k.val * (0 + 1); omega
    · rw [truncf_apply, shapeCast_1ab_ab_apply]
      exact slice3_axis1_apply 0 h _ (0 : Fin 1) (⟨n.val, hn⟩ : Fin 2047) k (⟨n.val, by omega⟩ : Fin 2048)
        (by show n.val = 0 + n.val; omega)
  · rw [dif_neg hn]
    refine (pad_apply_of_not_inside _ _ _ _ _ pads_S2047x2048_S2048x2048_010_000 h_S_ (ix2 n k) (0 : Fin 2)
      (fun hin => hn ?_)).trans ?_
    · have e : (n.val - 0) / 1 < 2047 := hin.2.2
      rwa [Nat.sub_zero, Nat.div_one] at e
    · show FloatOps.sitofp (F := Ideal) .bf16 (0#32) = (0 : EReal)
      show (((0#32 : BitVec 32).toInt : ℝ) : EReal) = 0
      rw [BitVec.toInt_zero, Int.cast_zero, EReal.coe_zero]

/-- Entry n of the padded label vector: label n + 1 for n < 2047, -100 on the appended entry. -/
theorem padLabels_apply (l : IVec S1x2048 32) (n : Fin 2048) :
    padLabels l (ix1 n) = Cert.Loss.lab l n.val := by
  unfold padLabels Cert.Loss.lab
  by_cases hn : n.val < 2047
  · rw [dif_pos hn]
    refine (pad_apply_of_inside _ _ _ _ _ pads_S2047_S2048_010 h_S_ (ix1 n)
      (ix1 (⟨n.val, hn⟩ : Fin 2047)) (fun a => ?_)).trans ?_
    · match a with
      | ⟨0, _⟩ => show n.val = 0 + n.val * (0 + 1); omega
    · rw [shapeCast_1a_a_apply]
      exact slice2_axis1_apply 1 l _ (0 : Fin 1) (⟨n.val, hn⟩ : Fin 2047) (⟨n.val + 1, by omega⟩ : Fin 2048)
        (by show n.val + 1 = 1 + n.val; omega)
  · rw [dif_neg hn]
    refine (pad_apply_of_not_inside _ _ _ _ _ pads_S2047_S2048_010 h_S_ (ix1 n) (0 : Fin 1)
      (fun hin => hn ?_)).trans rfl
    have e : (n.val - 0) / 1 < 2047 := hin.2.2
    rwa [Nat.sub_zero, Nat.div_one] at e

/-- The validity bit of an entry: 0 where the label is -100, 1 elsewhere. -/
theorem validOf_apply (p : IVec S2048 32) (j : S2048.Idx) :
    validOf p j = if p j = Cert.Loss.ignore then 0#1 else 1#1 := by
  show IntOp.cmpi .ne (p j) (4294967196#32) = _
  unfold IntOp.cmpi
  by_cases h : p j = Cert.Loss.ignore
  · rw [if_pos h, h]; rfl
  · rw [if_neg h]
    show BitVec.ofBool (p j != 4294967196#32) = 1#1
    rw [bne_iff_ne.mpr h]; rfl

/-- A word below 32000, read as a signed integer, lies in 0 … 31999: clipping leaves it. -/
theorem clip_of_lt (w : BitVec 32) (h : w.toNat < 32000) : IntOp.minsi 31999#32 (IntOp.maxsi 0#32 w) = w := by
  have hi : w.toInt = (w.toNat : Int) := by
    rw [BitVec.toInt_eq_toNat_cond, if_pos (by omega)]
  have e0 : (0#32 : BitVec 32).toInt = 0 := by decide
  have e1 : (31999#32 : BitVec 32).toInt = 31999 := by decide
  have h1 : w.slt 0#32 = false := by
    show decide (w.toInt < (0#32 : BitVec 32).toInt) = false
    rw [hi, e0]; exact decide_eq_false (by omega)
  have h2 : (31999#32 : BitVec 32).slt w = false := by
    show decide ((31999#32 : BitVec 32).toInt < w.toInt) = false
    rw [hi, e1]; exact decide_eq_false (by omega)
  unfold IntOp.minsi IntOp.maxsi
  rw [h1]
  simp only [Bool.false_eq_true, if_false, h2]

/-- Entry n of the safe label column: zero where the label is -100, the label itself where it is a column index
    (clipping to 0 … 31999 leaves a column index alone). A vector read as a one-column matrix keeps its entries. -/
theorem safeOf_apply (p : IVec S2048 32) (n : Fin 2048)
    (hp : p (ix1 n) = Cert.Loss.ignore ∨ (p (ix1 n)).toNat < 32000) :
    safeOf p (ix2 n (0 : Fin 1)) = if p (ix1 n) = Cert.Loss.ignore then 0#32 else p (ix1 n) := by
  unfold safeOf
  refine (shapeCast_apply _ shapeCasts_S2048_S2048x1 (ix2 n (0 : Fin 1)) (ix1 n) ?_).trans ?_
  · rw [Shape.rowMajor_val_two, Shape.rowMajor_val_one]
    show n.val = n.val * 1 + 0
    omega
  · rw [select_apply, validOf_apply]
    show Scalar.select _ (IntOp.minsi 31999#32 (IntOp.maxsi 0#32 (p (ix1 n)))) 0#32 = _
    by_cases h : p (ix1 n) = Cert.Loss.ignore
    · rw [if_pos h, if_pos h, select_zero]
    · rw [if_neg h, if_neg h, select_one, clip_of_lt _ (hp.resolve_left h)]

end Reads

/-! ## The arrays read at an index -/

section Arrays
variable (m : (ℓ : Loc nD τ sig) → Buf (Elt Ideal) ℓ)

/-- The hidden-state window's array: row n of it is hidden row n, the last row zero. -/
theorem V_hidden (c : Dev nD) (n k : Fin 2048) :
    (V m c main_v5 : FVec Ideal S2048x2048 .bf16) (ix2 n k)
      = Cert.Loss.hrow (m ((c.tc : Thread nD τ).loc main_arg0)) n.val k := by
  rw [V_hidden_term, padHidden_apply]

/-- The row-validity mask: entry n is 0 exactly where row n's label is -100. -/
theorem V0_valid (c : Dev nD) (n : Fin 2048) :
    (V0 m c (Proc.devRef .tc main_v8) : IVec S2048 1) (ix1 n)
      = if Cert.Loss.lab (m ((c.tc : Thread nD τ).loc main_arg1)) n.val = Cert.Loss.ignore then 0#1 else 1#1 := by
  rw [V0_valid_term, validOf_apply, padLabels_apply]

/-- The label window's array: entry n of the column is row n's label as a column index, zero for a row that does
    not count — provided every label is -100 or a column index. -/
theorem V_label (c : Dev nD)
    (hl : ∀ i, m ((c.tc : Thread nD τ).loc main_arg1) i = Cert.Loss.ignore
      ∨ (m ((c.tc : Thread nD τ).loc main_arg1) i).toNat < 32000) (n : Fin 2048) :
    (V m c main_v11 : IVec S2048x1 32) (ix2 n 0) = Cert.Loss.slab (m ((c.tc : Thread nD τ).loc main_arg1)) n.val := by
  have hr : Cert.Loss.lab (m ((c.tc : Thread nD τ).loc main_arg1)) n.val = Cert.Loss.ignore
      ∨ (Cert.Loss.lab (m ((c.tc : Thread nD τ).loc main_arg1)) n.val).toNat < 32000 := by
    unfold Cert.Loss.lab
    split
    · exact hl _
    · exact Or.inl rfl
  rw [V_label_term, safeOf_apply _ n (by rw [padLabels_apply]; exact hr), padLabels_apply]
  rfl

end Arrays

end Cert.KernelIdeal.Sweep

end
-- ==== Proof.Blocks.lean ====
/-
  The input blocks of a grid point, read off the arrays.

  The grid has 100 points, point t = 50·a + v at coordinates (a, v). The hidden-state window's block at t is rows
  1024·a … 1024·a + 1023 of the padded hidden rows; the weight window's block is rows 640·v … 640·v + 639 of the
  weight matrix; the label window's block is rows 1024·a … of the label column. The output window's block is rows
  1024·a … of the result column.
-/
import proofs.«405938_j53068615910223_3_alg».proof.Proof.Gen.KernelIdeal.Frame
import Idealize.ShloMosaic.Lib.Pipeline.Value
import Idealize.ShloMosaic.Lib.ValueIdx

set_option maxRecDepth 16384

noncomputable section

namespace Cert.KernelIdeal.Sweep

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The three input blocks of point t and the three arrays they are cut from, at their literal types. -/
abbrev hblk (c : Dev nD) (t : Fin cfg0.N) : Vec F S1024x2048 .bf16 := iblk m c 0 t
abbrev wblk (c : Dev nD) (t : Fin cfg0.N) : Vec F S640x2048 .f32 := iblk m c 1 t
abbrev lblk (c : Dev nD) (t : Fin cfg0.N) : Vec F S1024x1 .i32 := iblk m c 2 t
abbrev harr (c : Dev nD) : Vec F S2048x2048 .bf16 := V m c main_v5
abbrev warr (c : Dev nD) : Vec F S32000x2048 .f32 := V m c main_arg2
abbrev larr (c : Dev nD) : Vec F S2048x1 .i32 := V m c main_v11

theorem N100 : cfg0.N = 100 := N_0

/-- The index maps over the grid: the hidden, label and output windows follow the first coordinate, the weight
    window the second. -/
theorem idx_facts : ∀ t : Fin cfg0.N,
    win0_0.index t (0 : Fin 2) = t.val / 50 ∧ win0_0.index t (1 : Fin 2) = 0
    ∧ win0_1.index t (0 : Fin 2) = t.val % 50 ∧ win0_1.index t (1 : Fin 2) = 0
    ∧ win0_2.index t (0 : Fin 2) = t.val / 50 ∧ win0_2.index t (1 : Fin 2) = 0
    ∧ win0_3.index t (0 : Fin 2) = t.val / 50 ∧ win0_3.index t (1 : Fin 2) = 0 :=
  (by decide +kernel : ∀ t : Fin grid0.N, _)

theorem row_lt (t : Fin cfg0.N) (r : Fin 1024) : 1024 * (t.val / 50) + r.val < 2048 := by
  have := t.isLt; have := N100; have := r.isLt; omega

theorem wrow_lt (t : Fin cfg0.N) (j : Fin 640) : 640 * (t.val % 50) + j.val < 32000 := by
  have := j.isLt; have : t.val % 50 < 50 := Nat.mod_lt _ (by norm_num); omega

/-- Row r of the hidden block at t is row 1024·(t / 50) + r of the padded hidden rows. -/
theorem hblk_apply (c : Dev nD) (t : Fin cfg0.N) (r : Fin 1024) (k : Fin 2048) :
    hblk m c t (ix2 r k) = harr m c (ix2 (⟨1024 * (t.val / 50) + r.val, row_lt t r⟩ : Fin 2048) k) := by
  show iblk m c 0 t (ix2 r k) = _
  unfold iblk
  rw [View.read_apply]
  show V m c main_v5 _ = V m c main_v5 _
  congr 1
  funext a
  apply Fin.ext
  match a with
  | ⟨0, _⟩ => show win0_0.index t 0 * 1024 + 1 * r.val = 1024 * (t.val / 50) + r.val; rw [(idx_facts t).1]; omega
  | ⟨1, _⟩ => show win0_0.index t 1 * 2048 + 1 * k.val = k.val; rw [(idx_facts t).2.1]; omega

/-- Row j of the weight block at t is row 640·(t % 50) + j of the weight matrix. -/
theorem wblk_apply (c : Dev nD) (t : Fin cfg0.N) (j : Fin 640) (k : Fin 2048) :
    wblk m c t (ix2 j k) = warr m c (ix2 (⟨640 * (t.val % 50) + j.val, wrow_lt t j⟩ : Fin 32000) k) := by
  show iblk m c 1 t (ix2 j k) = _
  unfold iblk
  rw [View.read_apply]
  show V m c main_arg2 _ = V m c main_arg2 _
  congr 1
  funext a
  apply Fin.ext
  match a with
  | ⟨0, _⟩ => show win0_1.index t 0 * 640 + 1 * j.val = 640 * (t.val % 50) + j.val; rw [(idx_facts t).2.2.1]; omega
  | ⟨1, _⟩ => show win0_1.index t 1 * 2048 + 1 * k.val = k.val; rw [(idx_facts t).2.2.2.1]; omega

/-- Row r of the label block at t is row 1024·(t / 50) + r of the label column. -/
theorem lblk_apply (c : Dev nD) (t : Fin cfg0.N) (r : Fin 1024) :
    lblk m c t (ix2 r (0 : Fin 1)) = larr m c (ix2 (⟨1024 * (t.val / 50) + r.val, row_lt t r⟩ : Fin 2048) (0 : Fin 1)) := by
  show iblk m c 2 t (ix2 r (0 : Fin 1)) = _
  unfold iblk
  rw [View.read_apply]
  show V m c main_v11 _ = V m c main_v11 _
  congr 1
  funext a
  apply Fin.ext
  match a with
  | ⟨0, _⟩ => show win0_2.index t 0 * 1024 + 1 * r.val = 1024 * (t.val / 50) + r.val; rw [(idx_facts t).2.2.2.2.1]; omega
  | ⟨1, _⟩ => show win0_2.index t 1 * 1 + 1 * (0 : Fin 1).val = (0 : Fin 1).val; rw [(idx_facts t).2.2.2.2.2.1]; rfl

end Cert.KernelIdeal.Sweep

end
-- ==== Proof.Sweep.lean ====
/-
  The sweep over the grid, row by row.

  Grid point t = 50·a + v handles rows 1024·a … 1024·a + 1023 of the padded problem and columns 640·v … 640·v + 639
  of the logits. What the three carried buffers hold after point t, at row r, is the online log-sum-exp state of
  that row after its first 640·(v + 1) columns (Cert.OnlineLse.Acc): at v = 0 the body resets the buffers to
  (-∞, 0, 0) and takes the first block; at v > 0 it takes block v over what point t - 1 left. The block's logits are
  the row's logits at the block's columns, because the block of the hidden rows times the block of the weight rows
  is the corresponding block of their product. The picked column test fires exactly at the row's column
  (pick_iff: the words are small, nothing wraps). At v = 49 all 32000 columns are in, and the stored value
  max + log sum - pick is the row's negative log-likelihood.
-/
import proofs.«405938_j53068615910223_3_alg».proof.Proof.Pieces
import proofs.«405938_j53068615910223_3_alg».proof.Proof.Payload
import proofs.«405938_j53068615910223_3_alg».proof.Proof.Prefix
import proofs.«405938_j53068615910223_3_alg».proof.Proof.Blocks
import proofs.«405938_j53068615910223_3_alg».proof.Proof.Loss

set_option maxRecDepth 16384

noncomputable section

namespace Cert.KernelIdeal.Sweep

open Cert.KernelIdeal Cert.KernelIdeal.Gen Idealize.ShloMosaic Idealize.ShloMosaic.TcCoe Idealize.SL.Sem
open Idealize.ShloMosaic.ValueIdx

/-- The kernel's column test, on words that cannot wrap: lane j of step v is the safe label s exactly when
    640·v + j is s read as a number. -/
theorem pick_iff (s : BitVec 32) (hs : s.toNat < 32000) (v j : ℕ) (hv : v < 50) (hj : j < 640) :
    BitVec.ofNat 32 j = s - BitVec.ofNat 32 v * 640#32 ↔ 640 * v + j = s.toNat := by
  constructor
  · intro h
    have h' := congrArg BitVec.toNat h
    simp only [BitVec.toNat_ofNat, BitVec.toNat_sub, BitVec.toNat_mul] at h'
    omega
  · intro h
    apply BitVec.eq_of_toNat_eq
    simp only [BitVec.toNat_ofNat, BitVec.toNat_sub, BitVec.toNat_mul]
    omega

section Pieces

variable {F : FTy → Type} [FloatOps F]
variable (m : (ℓ : Loc nD τ sig) → Buf (Elt F) ℓ)

/-- What the point before t left in the three carried buffers. -/
abbrev prev0 (c : Dev nD) (t : Fin cfg0.N) : Vec F S1024x1 .f32 := (outsAt0 m c (t.val - 1) (Nat.lt_of_le_of_lt (Nat.sub_le _ _) t.isLt)).2.1
abbrev prev1 (c : Dev nD) (t : Fin cfg0.N) : Vec F S1024x1 .f32 := (outsAt0 m c (t.val - 1) (Nat.lt_of_le_of_lt (Nat.sub_le _ _) t.isLt)).2.2.1
abbrev prev2 (c : Dev nD) (t : Fin cfg0.N) : Vec F S1024x1 .f32 := (outsAt0 m c (t.val - 1) (Nat.lt_of_le_of_lt (Nat.sub_le _ _) t.isLt)).2.2.2

/-! What each point leaves, as the body's arithmetic of the point's blocks and of what it found (the first
    point of a row block finds the reset values). -/
theorem at_A0 (c : Dev nD) (t : Fin cfg0.N) (h0 : t.val % 50 = 0) (h1 : ¬t.val % 50 = 49) :
    (outsAt0 m c t.val t.isLt).2.1 = k0_pay2 (k0_pay9 (hblk m c t) (wblk m c t) k0_pay4) := by
  rw [outsAt0_A m c t h0 h1]; dsimp only
  exact sout_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
theorem at_A1 (c : Dev nD) (t : Fin cfg0.N) (h0 : t.val % 50 = 0) (h1 : ¬t.val % 50 = 49) :
    (outsAt0 m c t.val t.isLt).2.2.1 = k0_pay1 (k0_pay10 (hblk m c t) (wblk m c t) k0_pay4 k0_pay4) (k0_pay11 (hblk m c t) (wblk m c t) k0_pay4) k0_pay5 := by
  rw [outsAt0_A m c t h0 h1]; dsimp only
  exact sout_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
theorem at_A2 (c : Dev nD) (t : Fin cfg0.N) (h0 : t.val % 50 = 0) (h1 : ¬t.val % 50 = 49) :
    (outsAt0 m c t.val t.isLt).2.2.2 = k0_pay8 (grid0.coords t) (hblk m c t) (wblk m c t) (lblk m c t) k0_pay6 := by
  rw [outsAt0_A m c t h0 h1]; dsimp only
  exact sout_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
theorem at_B0 (c : Dev nD) (t : Fin cfg0.N) (h0 : ¬t.val % 50 = 0) (h1 : ¬t.val % 50 = 49) :
    (outsAt0 m c t.val t.isLt).2.1 = k0_pay2 (k0_pay9 (hblk m c t) (wblk m c t) (prev0 m c t)) := by
  rw [outsAt0_B m c t h0 h1]; dsimp only
  exact sout_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prev0 m c t) (prev1 m c t) (prev2 m c t)
theorem at_B1 (c : Dev nD) (t : Fin cfg0.N) (h0 : ¬t.val % 50 = 0) (h1 : ¬t.val % 50 = 49) :
    (outsAt0 m c t.val t.isLt).2.2.1 = k0_pay1 (k0_pay10 (hblk m c t) (wblk m c t) (prev0 m c t) (prev0 m c t)) (k0_pay11 (hblk m c t) (wblk m c t) (prev0 m c t)) (prev1 m c t) := by
  rw [outsAt0_B m c t h0 h1]; dsimp only
  exact sout_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prev0 m c t) (prev1 m c t) (prev2 m c t)
theorem at_B2 (c : Dev nD) (t : Fin cfg0.N) (h0 : ¬t.val % 50 = 0) (h1 : ¬t.val % 50 = 49) :
    (outsAt0 m c t.val t.isLt).2.2.2 = k0_pay8 (grid0.coords t) (hblk m c t) (wblk m c t) (lblk m c t) (prev2 m c t) := by
  rw [outsAt0_B m c t h0 h1]; dsimp only
  exact sout_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prev0 m c t) (prev1 m c t) (prev2 m c t)
theorem at_C0 (c : Dev nD) (t : Fin cfg0.N) (h0 : ¬t.val % 50 = 0) (h1 : t.val % 50 = 49) :
    (outsAt0 m c t.val t.isLt).2.1 = k0_pay2 (k0_pay9 (hblk m c t) (wblk m c t) (prev0 m c t)) := by
  rw [outsAt0_C m c t h0 h1]; dsimp only
  exact sout_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev0 m c t) (prev1 m c t) (prev2 m c t)
theorem at_C1 (c : Dev nD) (t : Fin cfg0.N) (h0 : ¬t.val % 50 = 0) (h1 : t.val % 50 = 49) :
    (outsAt0 m c t.val t.isLt).2.2.1 = k0_pay1 (k0_pay10 (hblk m c t) (wblk m c t) (prev0 m c t) (prev0 m c t)) (k0_pay11 (hblk m c t) (wblk m c t) (prev0 m c t)) (prev1 m c t) := by
  rw [outsAt0_C m c t h0 h1]; dsimp only
  exact sout_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev0 m c t) (prev1 m c t) (prev2 m c t)
theorem at_C2 (c : Dev nD) (t : Fin cfg0.N) (h0 : ¬t.val % 50 = 0) (h1 : t.val % 50 = 49) :
    (outsAt0 m c t.val t.isLt).2.2.2 = k0_pay8 (grid0.coords t) (hblk m c t) (wblk m c t) (lblk m c t) (prev2 m c t) := by
  rw [outsAt0_C m c t h0 h1]; dsimp only
  exact sout_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev0 m c t) (prev1 m c t) (prev2 m c t)
theorem at_C3 (c : Dev nD) (t : Fin cfg0.N) (h0 : ¬t.val % 50 = 0) (h1 : t.val % 50 = 49) :
    (outsAt0 m c t.val t.isLt).1 = k0_pay3 (k0_pay2 (k0_pay9 (hblk m c t) (wblk m c t) (prev0 m c t))) (k0_pay1 (k0_pay10 (hblk m c t) (wblk m c t) (prev0 m c t) (prev0 m c t)) (k0_pay11 (hblk m c t) (wblk m c t) (prev0 m c t)) (prev1 m c t)) (k0_pay8 (grid0.coords t) (hblk m c t) (wblk m c t) (lblk m c t) (prev2 m c t)) := by
  rw [outsAt0_C m c t h0 h1]; dsimp only
  exact out_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev0 m c t) (prev1 m c t) (prev2 m c t)

end Pieces

/-- The second grid coordinate of point t is t mod 50. -/
theorem coord1 : ∀ t : Fin cfg0.N, ((grid0.coords t) (1 : Fin 2)).val = t.val % 50 :=
  (by decide +kernel : ∀ t : Fin grid0.N, _)

section Rows

variable (m : (ℓ : Loc nD τ sig) → Buf (Elt Ideal) ℓ)

/-- The three argument arrays on core c. -/
abbrev H (c : Dev nD) : Cert.Loss.SH.Idx → EReal := m ((c.tc : Thread nD τ).loc main_arg0)
abbrev L (c : Dev nD) : Cert.Loss.SL.Idx → BitVec 32 := m ((c.tc : Thread nD τ).loc main_arg1)
abbrev W (c : Dev nD) : Cert.Loss.SW.Idx → EReal := m ((c.tc : Thread nD τ).loc main_arg2)

/-- The row of the padded problem that row r of point n's block is, its logits and its column. -/
abbrev rowOf (n : ℕ) (r : Fin 1024) : ℕ := 1024 * (n / 50) + r.val
abbrev X (c : Dev nD) (n : ℕ) (r : Fin 1024) : ℕ → ℝ := Cert.Loss.x (H m c) (W m c) (rowOf n r)
abbrev K (c : Dev nD) (n : ℕ) (r : Fin 1024) : ℕ := Cert.Loss.col (L m c) (rowOf n r)

variable {m}

/-- The block's logits are the row's logits at the block's columns. -/
theorem blk_eq {c : Dev nD} (hd : Cert.Loss.Dom (H m c) (L m c) (W m c)) (t : Fin cfg0.N) (r : Fin 1024) (j : Fin 640) :
    blk (hblk m c t) (wblk m c t) r j = ((X m c t.val r (640 * (t.val % 50) + j.val) : ℝ) : EReal) := by
  rw [← Cert.Loss.logit_real hd]
  unfold blk Cert.Loss.logit
  rw [dif_pos (wrow_lt t j)]
  refine Finset.sum_congr rfl fun k _ => ?_
  have e1 : harr m c (ix2 (⟨1024 * (t.val / 50) + r.val, row_lt t r⟩ : Fin 2048) k) = Cert.Loss.hrow (H m c) (rowOf t.val r) k :=
    V_hidden m c ⟨1024 * (t.val / 50) + r.val, row_lt t r⟩ k
  have e2 : warr m c = W m c := V_main_arg2 m c
  rw [hblk_apply, wblk_apply, e1, e2]

/-- ONE POINT AT ONE ROW: from the state the point finds (after 640·v columns, or the reset state), the body's
    three stored values at row r are the state after 640·v + 640 columns. -/
theorem step_row {c : Dev nD} (hd : Cert.Loss.Dom (H m c) (L m c) (W m c)) (t : Fin cfg0.N) (r : Fin 1024)
    (s0 s1 s2 : FVec Ideal S1024x1 .f32)
    (hprev : Cert.OnlineLse.Acc' (X m c t.val r) (K m c t.val r) (640 * (t.val % 50))
      (s0 (ix2 r (0 : Fin 1))) (s1 (ix2 r (0 : Fin 1))) (s2 (ix2 r (0 : Fin 1)))) :
    Cert.OnlineLse.Acc (X m c t.val r) (K m c t.val r) (640 * (t.val % 50) + 640)
      (k0_pay2 (k0_pay9 (hblk m c t) (wblk m c t) s0) (ix2 r (0 : Fin 1)))
      (k0_pay1 (k0_pay10 (hblk m c t) (wblk m c t) s0 s0) (k0_pay11 (hblk m c t) (wblk m c t) s0) s1 (ix2 r (0 : Fin 1)))
      (k0_pay8 (grid0.coords t) (hblk m c t) (wblk m c t) (lblk m c t) s2 (ix2 r (0 : Fin 1))) := by
  have hb : ∀ j : Fin 640, blk (hblk m c t) (wblk m c t) r j = ((X m c t.val r (640 * (t.val % 50) + j.val) : ℝ) : EReal) :=
    fun j => blk_eq hd t r j
  have hm : newMax (hblk m c t) (wblk m c t) s0 r
      = max (s0 (ix2 r (0 : Fin 1))) ((Finset.univ : Finset (Fin 640)).fold max (⊥ : EReal)
          fun j => ((X m c t.val r (640 * (t.val % 50) + j.val) : ℝ) : EReal)) := by
    unfold newMax; simp only [hb]
  have hlab : lblk m c t (ix2 r (0 : Fin 1)) = Cert.Loss.slab (L m c) (rowOf t.val r) := by
    rw [lblk_apply]; exact V_label m c hd.lrange ⟨rowOf t.val r, row_lt t r⟩
  have hcond : ∀ j : Fin 640, (BitVec.ofNat 32 j.val = lblk m c t (ix2 r (0 : Fin 1)) - BitVec.ofNat 32 ((grid0.coords t) (1 : Fin 2)).val * 640#32)
      ↔ 640 * (t.val % 50) + j.val = K m c t.val r := fun j => by
    rw [hlab, coord1 t, show K m c t.val r = (Cert.Loss.slab (L m c) (rowOf t.val r)).toNat from Cert.Loss.col_eq _ _]
    exact pick_iff _ (by rw [← Cert.Loss.col_eq]; exact Cert.Loss.col_lt hd _) _ _ (Nat.mod_lt _ (by norm_num)) j.isLt
  rw [pay2_eq, pay9_apply, pay1_apply, pay8_apply, hm]
  simp only [hb, hcond]
  exact hprev.step 640 (by norm_num) _ rfl

/-- THE INVARIANT: after point n, at row r, the carried buffers hold the row's state after 640·(n mod 50) + 640 columns. -/
theorem sweep {c : Dev nD} (hd : Cert.Loss.Dom (H m c) (L m c) (W m c)) : ∀ (n : ℕ) (hn : n < cfg0.N) (r : Fin 1024),
    Cert.OnlineLse.Acc (X m c n r) (K m c n r) (640 * (n % 50) + 640)
      ((outsAt0 m c n hn).2.1 (ix2 r (0 : Fin 1))) ((outsAt0 m c n hn).2.2.1 (ix2 r (0 : Fin 1))) ((outsAt0 m c n hn).2.2.2 (ix2 r (0 : Fin 1)))
  | n, hn, r => by
    by_cases h0 : n % 50 = 0
    · have h1 : ¬n % 50 = 49 := by omega
      rw [at_A0 m c ⟨n, hn⟩ h0 h1, at_A1 m c ⟨n, hn⟩ h0 h1, at_A2 m c ⟨n, hn⟩ h0 h1]
      exact step_row hd ⟨n, hn⟩ r k0_pay4 k0_pay5 k0_pay6
        (Or.inl ⟨by show 640 * (n % 50) = 0; omega, pay4_apply r, pay5_apply r, pay6_apply r⟩)
    · have hpos : 0 < n := Nat.pos_of_ne_zero fun h => h0 (by subst h; rfl)
      have ih := sweep hd (n - 1) (by omega) r
      have hq : (n - 1) / 50 = n / 50 := by omega
      have hr : 640 * ((n - 1) % 50) + 640 = 640 * (n % 50) := by omega
      rw [hr] at ih
      have ih' : Cert.OnlineLse.Acc' (X m c n r) (K m c n r) (640 * (n % 50))
          (prev0 m c ⟨n, hn⟩ (ix2 r (0 : Fin 1))) (prev1 m c ⟨n, hn⟩ (ix2 r (0 : Fin 1))) (prev2 m c ⟨n, hn⟩ (ix2 r (0 : Fin 1))) := by
        refine Or.inr ?_
        have e : rowOf (n - 1) r = rowOf n r := by show 1024 * ((n - 1) / 50) + r.val = 1024 * (n / 50) + r.val; rw [hq]
        show Cert.OnlineLse.Acc (Cert.Loss.x (H m c) (W m c) (rowOf n r)) (Cert.Loss.col (L m c) (rowOf n r)) _ _ _ _
        rw [← e]; exact ih
      by_cases h1 : n % 50 = 49
      · rw [at_C0 m c ⟨n, hn⟩ h0 h1, at_C1 m c ⟨n, hn⟩ h0 h1, at_C2 m c ⟨n, hn⟩ h0 h1]
        exact step_row hd ⟨n, hn⟩ r _ _ _ ih'
      · rw [at_B0 m c ⟨n, hn⟩ h0 h1, at_B1 m c ⟨n, hn⟩ h0 h1, at_B2 m c ⟨n, hn⟩ h0 h1]
        exact step_row hd ⟨n, hn⟩ r _ _ _ ih'

/-- THE LAST POINT OF A ROW BLOCK stores, at row r, the row's negative log-likelihood. -/
theorem out_last {c : Dev nD} (hd : Cert.Loss.Dom (H m c) (L m c) (W m c)) (n : ℕ) (hn : n < cfg0.N) (h49 : n % 50 = 49) (r : Fin 1024) :
    (outsAt0 m c n hn).1 (ix2 r (0 : Fin 1)) = Cert.Loss.nll (H m c) (L m c) (W m c) (rowOf n r) := by
  have h0 : ¬n % 50 = 0 := by omega
  have hpos : 0 < n := Nat.pos_of_ne_zero fun h => h0 (by subst h; rfl)
  have ih := sweep hd (n - 1) (by omega) r
  have hq : (n - 1) / 50 = n / 50 := by omega
  have hr : 640 * ((n - 1) % 50) + 640 = 640 * (n % 50) := by omega
  rw [hr] at ih
  have ih' : Cert.OnlineLse.Acc' (X m c n r) (K m c n r) (640 * (n % 50))
      (prev0 m c ⟨n, hn⟩ (ix2 r (0 : Fin 1))) (prev1 m c ⟨n, hn⟩ (ix2 r (0 : Fin 1))) (prev2 m c ⟨n, hn⟩ (ix2 r (0 : Fin 1))) := by
    refine Or.inr ?_
    have e : rowOf (n - 1) r = rowOf n r := by show 1024 * ((n - 1) / 50) + r.val = 1024 * (n / 50) + r.val; rw [hq]
    show Cert.OnlineLse.Acc (Cert.Loss.x (H m c) (W m c) (rowOf n r)) (Cert.Loss.col (L m c) (rowOf n r)) _ _ _ _
    rw [← e]; exact ih
  have hs := step_row hd ⟨n, hn⟩ r _ _ _ ih'
  have h32 : 640 * (n % 50) + 640 = 32000 := by omega
  rw [show ((⟨n, hn⟩ : Fin cfg0.N).val) = n from rfl, h32] at hs
  rw [at_C3 m c ⟨n, hn⟩ h0 h49, pay3_apply]
  exact hs.final (by norm_num) (Cert.Loss.col_lt hd _)

end Rows

end Cert.KernelIdeal.Sweep

end
-- ==== Proof.Final.lean ====
/-
  The result column after the run.

  Only the last point of each row block (t ≡ 49 mod 50) writes the output block back; what it writes is, row by
  row, the row's negative log-likelihood (Sweep.out_last). The two written blocks are rows 0 … 1023 and
  1024 … 2047, so together they cover the column: after the run, entry n of the result column is the negative
  log-likelihood of row n of the padded problem.
-/
import proofs.«405938_j53068615910223_3_alg».proof.Proof.Sweep

set_option maxRecDepth 16384

noncomputable section

namespace Cert.KernelIdeal.Sweep

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The column of negative log-likelihoods, one per row of the padded problem. -/
def nllCol (c : Dev nD) : Buf (Elt Ideal) ((c : Thread nD τ).loc main_v12) :=
  fun i => Cert.Loss.nll (H m c) (L m c) (W m c) (i 0).val

variable {m}

/-- What a writing point writes back is its block of that column. -/
theorem flushed_eq {c : Dev nD} (hd : Cert.Loss.Dom (H m c) (L m c) (W m c)) (t : Fin cfg0.N) (hf : (cfg0.win 3).flush t = true) :
    (dats m 0 c).flushed 3 t = ((cfg0.win 3).blk t).view.read (Elt Ideal) (nllCol m c) := by
  have h49 : t.val % 50 = 49 := (flush0_3 t).mp hf
  show (cfg0.win 3).cut (grid0.coords t) ((dats m 0 c).after 3 t) = _
  rw [after0_3]
  funext j
  obtain ⟨r, q, rfl⟩ : ∃ (r : Fin 1024) (q : Fin 1), j = ix2 r q := ⟨j 0, j 1, eq_ix2 j⟩
  obtain rfl : q = 0 := Subsingleton.elim _ _
  show (outsAt0 m c t.val t.isLt).1 (ix2 r (0 : Fin 1)) = nllCol m c (((cfg0.win 3).blk t).view.emb (ix2 r (0 : Fin 1)))
  rw [out_last hd t.val t.isLt h49 r]
  unfold nllCol
  congr 1
  show 1024 * (t.val / 50) + r.val = win0_3.index t 0 * 1024 + 1 * r.val
  rw [(idx_facts t).2.2.2.2.2.2.1]; omega

/-- An index of the column is in point t's block iff its coordinates are in the block's ranges. -/
theorem mem_blk3 (t : Fin cfg0.N) (i : S2048x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v12).slice (win0_3.rect t)).set ↔ _
  rw [View.set_slice_whole, Rect.mem_set_unit]
  exact Iff.rfl

/-- Every entry of the column is in the block of its row block's last point. -/
theorem cover3 (i : S2048x1.Idx) : ∃ t : Fin cfg0.N, (cfg0.win 3).flush t = true ∧ i ∈ ((cfg0.win 3).blk t).view.set := by
  have hi0 : (i 0).val < 2048 := (i 0).isLt
  have hi1 : (i 1).val < 1 := (i 1).isLt
  have hN := N100
  let t : Fin cfg0.N := ⟨50 * ((i 0).val / 1024) + 49, by omega⟩
  have ht : t.val = 50 * ((i 0).val / 1024) + 49 := rfl
  refine ⟨t, (flush0_3 t).mpr (by omega), ?_⟩
  rw [mem_blk3]
  intro a
  match a with
  | ⟨0, _⟩ =>
    show win0_3.index t 0 * 1024 ≤ (i 0).val ∧ (i 0).val < win0_3.index t 0 * 1024 + 1024
    rw [(idx_facts t).2.2.2.2.2.2.1]; omega
  | ⟨1, _⟩ =>
    show win0_3.index t 1 * 1 ≤ (i 1).val ∧ (i 1).val < win0_3.index t 1 * 1 + 1
    rw [(idx_facts t).2.2.2.2.2.2.2]; omega

/-- THE RESULT COLUMN after the run. -/
theorem final3 {c : Dev nD} (hd : Cert.Loss.Dom (H m c) (L m c) (W m c)) : (dats m 0 c).arrAt 3 cfg0.N = nllCol m c :=
  (dats m 0 c).arrAt_eq_of_cover 3 (nllCol m c) (flushed_eq hd) cover3

end Cert.KernelIdeal.Sweep

end
-- ==== Proof.Tail.lean ====
/-
  The two results of the kernel's program, as the host operations after the kernel region compute them from the
  region's output array.

  The region leaves one single-precision loss per row in a column of 2048 entries. After it the host reshapes the
  column to a vector, keeps a row's entry where the row-validity mask is set and puts 0.0 elsewhere, and adds the
  entries up from 0.0: the first result. The second result is the number of valid rows: the mask widened to 32 bits
  and added up from 0. Both are stated for any float instance, as the host's operations applied to the region's
  output and to the mask; the first is then read at the ideal values as a plain sum over the rows.
-/
import proofs.«405938_j53068615910223_3_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Sweep

open Idealize.ShloMosaic Idealize.ShloMosaic.TcCoe Idealize.ShloMosaic.Tactic
open Idealize.ShloMosaic.ValueIdx
open Cert.KernelIdeal Cert.KernelIdeal.Gen
open scoped BigOperators

variable {F : FTy → Type} [FloatOps F] (m : (ℓ : Loc nD τ sig) → Buf (Elt F) ℓ)

/-! ## The region's output and the mask, by name -/

/-- The region's output array, one loss per row, as the region leaves it: a column of 2048 single-precision values. -/
abbrev lossCol (c : Dev nD) : FVec F S2048x1 .f32 := (dats m 0 c).arrAt 3 cfg0.N

/-- The row-validity mask, one bit per row, computed before the region and read after it. -/
abbrev rowMask (c : Dev nD) : IVec S2048 1 := V0 m c (Proc.devRef .tc main_v8)

/-- The column is the fourth window's array after the last grid point. -/
theorem lossCol_eq (c : Dev nD) : lossCol m c = (dats m 0 c).arrAt 3 cfg0.N := rfl

/-- The mask is the buffer's value when the region is entered. -/
theorem rowMask_eq (c : Dev nD) : rowMask m c = V0 m c (Proc.devRef .tc main_v8) := rfl

/-! ## The two results, at any float instance -/

/-- The masked per-row loss. The program's first result is the host's add-reduction, from 0.0, of the vector that
    holds the region's output column (reshaped from [2048, 1] to [2048]) on the rows where the validity mask is
    set and 0.0 on the others. -/
theorem tail_loss (c : Dev nD) :
    Pipeline.afterTail₀ cfgs (dats m) 0 (V0 m) [hostOps1, hostOps1_1, hostOps1_2] c main_v15
      = Host.reduceAdd (select (V0 m c (Proc.devRef .tc main_v8) : IVec S2048 1)
            (shapeCast S2048 ((dats m 0 c).arrAt 3 cfg0.N : FVec F S2048x1 .f32) shapeCasts_S2048x1_S2048)
            (broadcastInDim S2048 ![] bcast_S_S2048 (constant S_ .f32 0x00000000#32)))
          (constant S_ .f32 0x00000000#32) reducesTo_S2048_S_d0 h_S_ := by
  unfold Pipeline.afterTail₀
  simp only [hostOps1, hostOps1_1, hostOps1_2, List.flatten_cons, List.flatten_nil, List.append_nil, List.cons_append, List.nil_append]
  after_results
  simp only [StableHlo.TRef.ofBuf, StableHlo.TRef.toBuf, cast_eq]
  -- the region's output array is window 3's; the mask is no window's array, so it keeps its value from before the region
  have h12 : Pipeline.withArrays (cfgs 0).spec c (V0 m c) (fun w => (dats m 0 c).arrAt w (cfgs 0).N) (Proc.devRef .tc main_v12)
      = (dats m 0 c).arrAt 3 cfg0.N := Pipeline.withArrays_arr spec0 launch0.win.arr_inj c _ _ 3
  rw [h12, Pipeline.withArrays_of_ne _ c (V0 m c) _ main_v8 (by exact (by decide : ∀ w, Pipeline.arrRef spec0 w ≠ main_v8))]
  rfl

/-- The count of valid rows. The program's second result is the host's integer add-reduction, from 0, of the mask
    zero-extended to 32 bits; it does not read the region's output. -/
theorem tail_count (c : Dev nD) :
    Pipeline.afterTail₀ cfgs (dats m) 0 (V0 m) [hostOps1, hostOps1_1, hostOps1_2] c main_v17
      = Host.reduce IntOp.addi (extui 32 (V0 m c (Proc.devRef .tc main_v8) : IVec S2048 1) natLt_1_32) (constantI S_ 32 0#32) reducesTo_S2048_S_d0 h_S_ := by
  unfold Pipeline.afterTail₀
  simp only [hostOps1, hostOps1_1, hostOps1_2, List.flatten_cons, List.flatten_nil, List.append_nil, List.cons_append, List.nil_append]
  after_results
  rw [Pipeline.withArrays_of_ne _ c (V0 m c) _ main_v8 (by exact (by decide : ∀ w, Pipeline.arrRef spec0 w ≠ main_v8))]

/-! ## The first result at the ideal values: a plain sum over the rows -/

/-- A vector's index set is its one coordinate's range. -/
def idxEquiv1 {n : Nat} : Fin n ≃ (⟨1, ![n]⟩ : Shape).Idx where
  toFun := ix1
  invFun j := j 0
  left_inv _ := rfl
  right_inv j := (eq_ix1 j).symm

section IdealReading

variable (mI : (ℓ : Loc nD τ sig) → Buf (Elt Ideal) ℓ)

/-- At the ideal values the masked loss is the sum, over the 2048 rows, of the region's output at the row where the
    mask bit is set and of 0 where it is not: the host's reduction into a scalar is its initial value 0 plus the sum
    over every index, the [2048, 1] to [2048] reshape keeps the row (both row-major positions are the row number),
    and the select on a one-bit word is the conditional on that bit. -/
theorem tail_loss_sum (c : Dev nD) :
    Pipeline.afterTail₀ cfgs (dats mI) 0 (V0 mI) [hostOps1, hostOps1_1, hostOps1_2] c main_v15
      = fun _ => ∑ n : Fin 2048, (if rowMask mI c (ix1 n) = 1#1 then lossCol mI c (ix2 n 0) else 0) := by
  rw [tail_loss]
  funext j
  refine (Ideal.hostReduceAdd_total reducesTo_S2048_S_d0 (fun b => b.elim0) _ _ j).trans ?_
  show Ideal.ofBits .f32 0x00000000#32 + _ = _
  rw [Ideal.ofBits_zero_f32, zero_add, ← Equiv.sum_comp (idxEquiv1 (n := 2048))]
  refine Finset.sum_congr rfl fun n _ => ?_
  show select _ _ _ (ix1 n) = _
  rw [select_apply,
    shapeCast_apply _ _ (ix1 n) (ix2 n 0) (by rw [Shape.rowMajor_val_two, Shape.rowMajor_val_one]; show n.val * 1 + (0 : Fin 1).val = n.val; simp),
    broadcastInDim_apply ![] bcast_S_S2048 _ (ix1 n) ix0 (fun a => a.elim0)]
  show Scalar.select _ _ (Ideal.ofBits .f32 0x00000000#32) = _
  rw [Ideal.ofBits_zero_f32]
  rfl

end IdealReading

end Cert.KernelIdeal.Sweep

end
-- ==== Proof.Count.lean ====
/-
  The number of counted rows, on both programs.

  An integer add-reduce over the one axis of a rank-1 array into a scalar is the fold of 32-bit addition over that
  axis's coordinates, from zero: the scalar has a single index, so every operand index reduces to it, and the operand's
  indices are the coordinates one for one. A last term equal to zero drops out of such a fold.

  The reference compares the labels l[0, 1 ..] with -100, widens the one-bit answers to 32 bits and adds them up over
  2047 rows. The padded program adds up 2048 widened mask bits, the last row's bit being zero. Both are the count of
  the common specification.
-/
import proofs.«405938_j53068615910223_3_alg».proof.KernelIdeal
import proofs.«405938_j53068615910223_3_alg».proof.ReferenceIdeal
import proofs.«405938_j53068615910223_3_alg».proof.Proof.Loss
import Idealize.ShloMosaic.PureOps.Reduce
import Idealize.ShloMosaic.Lib.ValueIdx
import Idealize.ShloMosaic.Lib.ValueLayout
import Idealize.ShloMosaic.Lib.Pipeline.Value
import Mathlib.Data.Fintype.Fin

noncomputable section

/-! ## Folds of 32-bit addition -/

namespace Cert.Count

open Idealize.ShloMosaic Idealize.ShloMosaic.ValueIdx

/-- Zero is a left identity of 32-bit addition. -/
theorem addi_zero_left (x : BitVec 32) : IntOp.addi 0#32 x = x := by
  show 0#32 + x = x
  exact BitVec.zero_add x

/-- An add-reduce of a rank-1 array into a scalar, from zero, is the fold of addition over the axis: the scalar's one
    index is every operand index's image, and the operand's indices are the coordinates k ↦ (k). -/
theorem reduce_addi_fin {n : ℕ} (h' : (⟨1, ![n]⟩ : Shape).ReducesTo [0] ⟨0, ![]⟩) (hu : 0 < (⟨0, ![]⟩ : Shape).numel)
    (v : IVec ⟨1, ![n]⟩ 32) (j : (⟨0, ![]⟩ : Shape).Idx) :
    Host.reduce IntOp.addi v (constantI ⟨0, ![]⟩ 32 0#32) h' hu j
      = (Finset.univ : Finset (Fin n)).fold IntOp.addi 0#32 fun k => v (ix1 k) := by
  rw [Host.reduce_eq_fold]
  have hall : (Finset.univ.filter fun i : (⟨1, ![n]⟩ : Shape).Idx => h'.drop i = j) = Finset.univ :=
    Finset.filter_true_of_mem fun i _ => funext fun b => b.elim0
  have himg : (Finset.univ : Finset (⟨1, ![n]⟩ : Shape).Idx) = (Finset.univ : Finset (Fin n)).image ix1 := by
    ext i
    simp only [Finset.mem_univ, Finset.mem_image, true_and, true_iff]
    exact ⟨i 0, (eq_ix1 i).symm⟩
  rw [hall, himg, Finset.fold_image fun a _ b _ e => congrFun e 0]
  rfl

/-- A fold of addition over n + 1 terms whose last term is zero is the fold over the first n. -/
theorem fold_addi_castSucc {n : ℕ} (f : Fin (n + 1) → BitVec 32) (hlast : f (Fin.last n) = 0#32) :
    (Finset.univ : Finset (Fin (n + 1))).fold IntOp.addi 0#32 f
      = (Finset.univ : Finset (Fin n)).fold IntOp.addi 0#32 fun k => f k.castSucc := by
  rw [Fin.univ_castSuccEmb, Finset.fold_cons, Finset.fold_map, hlast]
  exact addi_zero_left _

/-- The answer of "a ≠ b", widened from one bit to 32: zero when the words are equal, one otherwise. -/
theorem extui_cmpi_ne (a b : BitVec 32) : (IntOp.cmpi .ne a b).setWidth 32 = if a = b then 0#32 else 1#32 := by
  show (BitVec.ofBool (a != b)).setWidth 32 = _
  by_cases h : a = b
  · rw [if_pos h, h, bne_self_eq_false]; rfl
  · rw [if_neg h, show (a != b) = true from bne_iff_ne.2 h]; rfl

/-- A one-bit mask written by cases, widened to 32 bits, is the same cases on 32-bit zero and one. -/
theorem extui_ite (c : Prop) [Decidable c] : (if c then 0#1 else 1#1).setWidth 32 = if c then 0#32 else 1#32 := by
  split <;> rfl

end Cert.Count

/-! ## The reference's count -/

namespace Cert.ReferenceIdeal.RefValue

open Cert.ReferenceIdeal Idealize.ShloMosaic Idealize.ShloMosaic.ValueIdx
open Cert.ReferenceIdeal.Facts₀ Cert.ReferenceIdeal.Facts

variable [Cert.ReferenceIdeal.Facts]

/-- The reference's second result: row n's term is the widened answer of l[0, n + 1] ≠ -100, which is row n's term of
    the count. -/
theorem ref_count (l : IVec S1x2048 32) :
    Host.reduce IntOp.addi (extui 32 (cmpi .ne (shapeCast S2047 (extractStridedSlice S1x2047 ![0, 1] l slices_S1x2048_S1x2047_0_1) shapeCasts_S1x2047_S2047)
        (broadcastInDim S2047 ![] bcast_S_S2047 (constantI S_ 32 4294967196#32))) natLt_1_32) (constantI S_ 32 0#32) reducesTo_S2047_S_d0 h_S_
      = fun _ => Cert.Loss.count l := by
  funext j
  rw [Cert.Count.reduce_addi_fin]
  unfold Cert.Loss.count
  refine Finset.fold_congr fun n _ => ?_
  have hn : n.val < 2047 := n.isLt
  show (IntOp.cmpi .ne
      (shapeCast S2047 (extractStridedSlice S1x2047 ![0, 1] l slices_S1x2048_S1x2047_0_1) shapeCasts_S1x2047_S2047 (ix1 n))
      (broadcastInDim S2047 ![] bcast_S_S2047 (constantI S_ 32 4294967196#32) (ix1 n))).setWidth 32 = _
  rw [shapeCast_1a_a_apply,
    slice2_axis1_apply 1 l slices_S1x2048_S1x2047_0_1 0 n ⟨n.val + 1, by omega⟩ (Nat.add_comm _ _),
    broadcastInDim_apply _ bcast_S_S2047 _ (ix1 n) ix0 (fun a => a.elim0), constantI_apply,
    Cert.Count.extui_cmpi_ne]
  unfold Cert.Loss.lab
  rw [dif_pos hn]

end Cert.ReferenceIdeal.RefValue

/-! ## The padded program's count -/

namespace Cert.KernelIdeal.Sweep

open Cert.KernelIdeal Idealize.ShloMosaic Idealize.ShloMosaic.ValueIdx
open Cert.KernelIdeal.Facts₀ Cert.KernelIdeal.Facts

variable [Cert.KernelIdeal.Facts]

/-- The padded program's count: 2048 widened mask bits added up, row n's bit being "row n counts"; row 2047 carries
    -100, so its bit is zero and the other 2047 terms are the count's. -/
theorem pad_count (l : Cert.Loss.SL.Idx → BitVec 32) (v : IVec S2048 1)
    (hv : ∀ n : Fin 2048, v (ix1 n) = if Cert.Loss.lab l n.val = Cert.Loss.ignore then 0#1 else 1#1) :
    Host.reduce IntOp.addi (extui 32 v natLt_1_32) (constantI S_ 32 0#32) reducesTo_S2048_S_d0 h_S_
      = fun _ => Cert.Loss.count l := by
  funext j
  rw [Cert.Count.reduce_addi_fin, Cert.Count.fold_addi_castSucc (n := 2047)]
  · unfold Cert.Loss.count
    refine Finset.fold_congr fun n _ => ?_
    show (v (ix1 n.castSucc)).setWidth 32 = _
    rw [hv, Cert.Count.extui_ite]
    rfl
  · show (v (ix1 (Fin.last 2047))).setWidth 32 = 0#32
    have hlast : Cert.Loss.lab l (Fin.last 2047).val = Cert.Loss.ignore := by
      unfold Cert.Loss.lab
      exact dif_neg (by simp)
    rw [hv, if_pos hlast]
    rfl

end Cert.KernelIdeal.Sweep

end
-- ==== Proof.KernelValue.lean ====
/-
  The kernel's program, run: its two results as functions of the three arrays.

  After the kernel region the program keeps the result column only on the counted rows and sums it; it also sums
  the counted-row mask. The padded problem has one row more than the reference's (row 2047: zero hidden state,
  label -100); that row is not counted, so both sums are the sums over the first 2047 rows: the loss and the count.
-/
import proofs.«405938_j53068615910223_3_alg».proof.Proof.Final
import proofs.«405938_j53068615910223_3_alg».proof.Proof.Tail
import proofs.«405938_j53068615910223_3_alg».proof.Proof.Count

set_option maxRecDepth 16384

noncomputable section

namespace Cert.KernelIdeal.Sweep

open Cert.KernelIdeal Cert.KernelIdeal.Gen Idealize.ShloMosaic Idealize.ShloMosaic.TcCoe Idealize.SL.Sem
open Idealize.ShloMosaic.ValueIdx

variable {m : (ℓ : Loc nD τ sig) → Buf (Elt Ideal) ℓ}

theorem lab_last (l : Cert.Loss.SL.Idx → BitVec 32) : Cert.Loss.lab l 2047 = Cert.Loss.ignore := by
  unfold Cert.Loss.lab; exact dif_neg (by omega)

/-- The first result: the loss. -/
theorem loss_eq {c : Dev nD} (hd : Cert.Loss.Dom (H m c) (L m c) (W m c)) :
    Pipeline.afterTail₀ cfgs (dats m) 0 (V0 m) [hostOps1, hostOps1_1, hostOps1_2] c main_v15
      = fun _ => Cert.Loss.loss (H m c) (L m c) (W m c) := by
  rw [tail_loss_sum m c]
  funext _
  have hcol : ∀ n : Fin 2048, lossCol m c (ix2 n (0 : Fin 1)) = Cert.Loss.nll (H m c) (L m c) (W m c) n.val :=
    fun n => (congrFun (final3 hd) (ix2 n (0 : Fin 1)) : lossCol m c (ix2 n (0 : Fin 1)) = nllCol m c (ix2 n (0 : Fin 1))).trans rfl
  have e : ∀ n : Fin 2048, (if rowMask m c (ix1 n) = 1#1 then lossCol m c (ix2 n (0 : Fin 1)) else 0)
      = (if Cert.Loss.lab (L m c) n.val = Cert.Loss.ignore then (0 : EReal) else Cert.Loss.nll (H m c) (L m c) (W m c) n.val) := fun n => by
    rw [show rowMask m c (ix1 n) = _ from V0_valid m c n, hcol n]
    by_cases hl : Cert.Loss.lab (L m c) n.val = Cert.Loss.ignore
    · rw [if_pos hl, if_pos hl, if_neg (by decide)]
    · rw [if_neg hl, if_neg hl, if_pos rfl]
  rw [Finset.sum_congr rfl fun n _ => e n, Fin.sum_univ_castSucc]
  show _ + (if Cert.Loss.lab (L m c) 2047 = Cert.Loss.ignore then (0 : EReal) else _) = _
  rw [if_pos (lab_last _), add_zero]
  rfl

/-- The second result: the count. -/
theorem count_eq (c : Dev nD) :
    Pipeline.afterTail₀ cfgs (dats m) 0 (V0 m) [hostOps1, hostOps1_1, hostOps1_2] c main_v17
      = fun _ => Cert.Loss.count (L m c) := by
  rw [tail_count m c]
  exact pad_count (L m c) _ (fun n => V0_valid m c n)

/-- THE RUN: every weakly fair execution ends with the loss and the count in the two results, the arguments unchanged. -/
theorem run (m : (ℓ : Loc nD τ sig) → Buf (Elt Ideal) ℓ) (ρ : Dev nD → PrngReg)
    (hd : ∀ c : Dev nD, Cert.Loss.Dom (H m c) (L m c) (W m c)) :
    θ_run defs (onTc (τ := τ) (main (F := Ideal))) ⟨m, fun _ => 0, ρ⟩ fun r => ∀ c : Dev nD,
      r.2.mem ((c.tc : Thread nD τ).loc main_v15) = (fun _ => Cert.Loss.loss (H m c) (L m c) (W m c))
      ∧ r.2.mem ((c.tc : Thread nD τ).loc main_v17) = (fun _ => Cert.Loss.count (L m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans (loss_eq (hd c)),
     ((h c).2 main_v17 (Pipeline.mem_restRefs_of main_v17 (by decide) (by decide))).trans (count_eq c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 1).trans (((dats m 0 c).arrAt_in 1 rfl _).trans ((A_eq m c 1).trans (V_main_arg2 m c)))⟩)
    (run_main m ρ)

end Cert.KernelIdeal.Sweep

end
-- ==== Proof.RefLogp.lean ====
/-
  The reference's log-softmax stage, read at an index.

  The reference forms the logits x n c = ∑ₖ h[0, n, k] · w[c, k] of the 2047 shifted rows and then, row by row:
  the maximum m n of the row (folded from -∞ over the 32000 columns, and once more maximised against -∞), the
  shifted logits x n c - m n, their exponentials, the row's sum of those from 0, its logarithm, and the
  difference (x n c - m n) - log ∑_{c'} exp (x n c' - m n). On the domain every logit is a real number, so the
  maximum m n is a real number μ as well (which real it is never matters), and entry (n, c) of the result is
  (x n c - μ) - log ∑_{c'} exp (x n c' - μ).
-/
import proofs.«405938_j53068615910223_3_alg».proof.Proof.ReadP
import proofs.«405938_j53068615910223_3_alg».proof.Proof.Loss
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx

/-- The word 0xFF800000 is -∞. -/
theorem negInf_f32 : Ideal.ofBits .f32 0xFF800000#32 = (⊥ : EReal) := by simp [Ideal.ofBits, Ideal.ieee]

/-- Entry (n, c) of the reference's matrix product is the logit of row n at column c: the slice keeps rows
    0 … 2046 of the one batch, the reshape drops the batch axis, and the product contracts the feature axis of
    both factors. -/
theorem logit_apply (h : (⟨S1x2048x2048, .f32⟩ : BufTy).Contents (Elt Ideal)) (w : (⟨S32000x2048, .f32⟩ : BufTy).Contents (Elt Ideal))
    (n : Fin 2047) (c : Fin 32000) :
    val_main_v4 (F := Ideal) h w (ix2 n c) = Cert.Loss.logit h w n.val c.val := by
  rw [val_main_v4_apply]
  unfold Cert.Loss.logit
  rw [dif_pos c.isLt]
  refine Finset.sum_congr rfl fun k _ => ?_
  rw [val_main_v2_apply, val_main_v0_apply]
  unfold Cert.Loss.hrow
  rw [dif_pos n.isLt]
  -- the left factor's index: batch 0, row (n * 2048 + k) / 2048 = n, feature (n * 2048 + k) % 2048 = k
  have el : idx_main_v0 (idx_main_v2 (lidx_main_v4 (ix2 n c) k))
      = ix3 (0 : Fin 1) (⟨n.val, by omega⟩ : Fin 2048) k :=
    funext fun a => Fin.ext (by
      have hn := n.isLt
      have hk := k.isLt
      match a with
      | ⟨0, _⟩ => rfl
      | ⟨1, _⟩ => show (n.val * 2048 + k.val) / 2048 % 2047 = n.val; omega
      | ⟨2, _⟩ => show (n.val * 2048 + k.val) % 2048 = k.val; omega)
  -- the right factor's index: column c, feature k
  have er : ridx_main_v4 (ix2 n c) k = ix2 (⟨c.val, c.isLt⟩ : Fin 32000) k :=
    funext fun a => Fin.ext (by match a with | ⟨0, _⟩ => rfl | ⟨1, _⟩ => rfl)
  rw [el, er]

/-- Reducing the columns of a 2047 × 32000 array leaves its 2047 rows. -/
theorem reduces_row : S2047x32000.Reduces [1] S2047 := by decide

/-- Row n's index with the column c put back is (n, c). -/
theorem lift_row (n : Fin 2047) (c : Fin 32000) : reduces_row.lift (ix1 n) c = ix2 n c :=
  funext fun a => Fin.ext (by match a with | ⟨0, _⟩ => rfl | ⟨1, _⟩ => rfl)

/-- The maximum over the columns, as the reference reduces it from -∞, is at row n the fold of max from -∞
    over the row's 32000 entries: max commutes and associates, so the order of the fold is immaterial. -/
theorem rowmax_fold (y : (⟨S2047x32000, .f32⟩ : BufTy).Contents (Elt Ideal)) (n : Fin 2047) :
    Host.reduce FloatOps.maximumf y (constant (F := Ideal) S_ .f32 0xFF800000#32) reducesTo_S2047x32000_S2047_d1 h_S_ (ix1 n)
      = (Finset.univ : Finset (Fin 32000)).fold max (⊥ : EReal) (fun c => y (ix2 n c)) := by
  refine (Host.reduce_eq_fold_single (s := S2047x32000) (t := S2047) (a := 1) (u := S_)
    (FloatOps.maximumf (F := Ideal) (φ := .f32)) y (constant (F := Ideal) S_ .f32 0xFF800000#32)
    reducesTo_S2047x32000_S2047_d1 reduces_row h_S_ (ix1 n)).trans ?_
  have e1 : constant (F := Ideal) S_ .f32 0xFF800000#32 (Shape.Idx.first h_S_) = (⊥ : EReal) := negInf_f32
  refine (congrArg (fun b => Finset.fold (FloatOps.maximumf (F := Ideal) (φ := .f32)) b (y ∘ reduces_row.lift (ix1 n)) Finset.univ) e1).trans ?_
  exact Finset.fold_congr (fun c _ => congrArg y (lift_row n c))

/-- The maximum of 32000 real numbers folded from -∞, maximised once more against -∞, is a real number. -/
theorem rowmax_real (ρ : Fin 32000 → ℝ) :
    ∃ μ : ℝ, max (⊥ : EReal) ((Finset.univ : Finset (Fin 32000)).fold max (⊥ : EReal) (fun c => (ρ c : EReal))) = (μ : EReal) := by
  obtain ⟨β, hβ⟩ := Cert.OnlineLse.fold_max_real (Finset.univ : Finset (Fin 32000)) ⟨⟨0, by decide⟩, Finset.mem_univ _⟩ ρ
  exact ⟨β, by rw [hβ]; exact max_eq_right bot_le⟩

/-- On the domain the reference's maximum of row n is a real number: the row's logits are real. -/
theorem max_apply (h : (⟨S1x2048x2048, .f32⟩ : BufTy).Contents (Elt Ideal)) (l : Cert.Loss.SL.Idx → BitVec 32)
    (w : (⟨S32000x2048, .f32⟩ : BufTy).Contents (Elt Ideal)) (hd : Cert.Loss.Dom h l w) (n : Fin 2047) :
    ∃ μ : ℝ, val_main_call0_v2 (F := Ideal) h w (ix1 n) = (μ : EReal) := by
  obtain ⟨μ, hμ⟩ := rowmax_real (fun c : Fin 32000 => Cert.Loss.x h w n.val c.val)
  refine ⟨μ, ?_⟩
  have e0 : val_main_call0_v0 (F := Ideal) h w (ix1 n)
      = (Finset.univ : Finset (Fin 32000)).fold max (⊥ : EReal) (fun c => (Cert.Loss.x h w n.val c.val : EReal)) :=
    (rowmax_fold (val_main_v4 (F := Ideal) h w) n).trans
      (Finset.fold_congr fun c _ => (logit_apply h w n c).trans (Cert.Loss.logit_real hd n.val c.val))
  rw [val_main_call0_v2_apply, val_main_call0_v1_apply, val_main_call0_cst_0_apply, e0,
    show FloatOps.ofBits (F := Ideal) .f32 0xFF800000#32 = (⊥ : EReal) from negInf_f32]
  exact hμ

/-- THE LOG-SOFTMAX STAGE AT AN INDEX. On the domain, with μ the real maximum of row n, entry (n, c) of the
    reference's log-softmax array is (x n c - μ) - log ∑_{c'} exp (x n c' - μ): the shifted logit, less the
    logarithm of the row's sum (from 0) of the exponentials of the shifted logits. -/
theorem logp_apply (h : (⟨S1x2048x2048, .f32⟩ : BufTy).Contents (Elt Ideal)) (l : Cert.Loss.SL.Idx → BitVec 32)
    (w : (⟨S32000x2048, .f32⟩ : BufTy).Contents (Elt Ideal)) (hd : Cert.Loss.Dom h l w) (n : Fin 2047) :
    ∃ μ : ℝ, ∀ c : Fin 32000, val_main_v5 (F := Ideal) h w (ix2 n c)
      = ((Cert.Loss.x h w n.val c.val : EReal) - (μ : EReal))
        - Ideal.log (∑ c' : Fin 32000, Ideal.exp ((Cert.Loss.x h w n.val c'.val : EReal) - (μ : EReal))) := by
  obtain ⟨μ, hμ⟩ := max_apply h l w hd n
  refine ⟨μ, fun c => ?_⟩
  -- the shifted logit at (n, c'): the logit less the row's maximum, broadcast along the row
  have h5 : ∀ c' : Fin 32000, val_main_call0_v5 (F := Ideal) h w (ix2 n c')
      = (Cert.Loss.x h w n.val c'.val : EReal) - (μ : EReal) := fun c' => by
    rw [val_main_call0_v5_apply, val_main_call0_v4_apply, val_main_call0_v3_apply, logit_apply,
      Cert.Loss.logit_real hd,
      show idx_main_call0_v3 (idx_main_call0_v4 (ix2 n c')) = ix1 n from
        funext fun a => Fin.ext (by match a with | ⟨0, _⟩ => rfl),
      hμ, Ideal.subf_def]
  -- the row's sum of exponentials: 0 plus the sum over the 32000 columns
  have h7 : val_main_call0_v7 (F := Ideal) h w (ix1 n)
      = ∑ c' : Fin 32000, Ideal.exp ((Cert.Loss.x h w n.val c'.val : EReal) - (μ : EReal)) := by
    rw [val_main_call0_v7_apply, val_main_call0_cst_1_apply,
      show FloatOps.ofBits (F := Ideal) .f32 0x00000000#32 = (0 : EReal) from Ideal.ofBits_zero_f32, zero_add]
    refine Finset.sum_congr rfl fun c' _ => ?_
    rw [show idx_main_call0_v7 (ix1 n) c' = ix2 n c' from
        funext fun a => Fin.ext (by match a with | ⟨0, _⟩ => rfl | ⟨1, _⟩ => rfl),
      val_main_call0_v6_apply, h5 c', Ideal.hostUnary_exp_def]
  rw [val_main_v5_apply, h5 c, val_main_call0_v10_apply, val_main_call0_v9_apply, val_main_call0_v8_apply,
    show idx_main_call0_v8 (idx_main_call0_v10 (ix2 n c)) = ix1 n from
      funext fun a => Fin.ext (by match a with | ⟨0, _⟩ => rfl),
    h7, Ideal.subf_def, Ideal.hostUnary_log_def]

end Cert.ReferenceIdeal.RefValue

end
-- ==== Proof.RefPick.lean ====
/-
  The reference's loss from its log-softmax array.

  After the log-softmax array logp[2047, 32000] the reference marks the rows whose label labels[0, n + 1] is not -100,
  replaces the label of an unmarked row by 0, reads logp[n, that column] for every row n, negates it, puts 0 on the
  unmarked rows and adds the 2047 numbers up from 0.

  The column read is a gather along the row's own axis: row n of the result reads row n of logp at the row's start
  index, read signed and clamped into the 32000 columns. The reference wraps a negative index around (adding 32000) and
  masks a read whose index is outside [0, 31999] by a not-a-number; on labels that are -100 or a column below 32000
  the index word of every row is in range, so neither happens: the wrap-around is not taken, the mask is all ones, the
  clamp is the identity. What is left is the sum over the counted rows of -logp[n, label n].
-/
import proofs.«405938_j53068615910223_3_alg».proof.Proof.ReadP
import proofs.«405938_j53068615910223_3_alg».proof.Proof.Loss
import Idealize.ShloMosaic.PureOps.Reduce
import Idealize.ShloMosaic.PureOps.Ideal.Laws
import Idealize.ShloMosaic.Lib.ValueIdx
import Idealize.ShloMosaic.Lib.ValueIdxRank1
import Idealize.ShloMosaic.Lib.ReduceAll
import Idealize.ShloMosaic.Lib.StableHlo.Predicate

noncomputable section

open scoped BigOperators

namespace Cert.ReferenceIdeal.RefValue

open Cert.ReferenceIdeal Cert.ReferenceIdeal.ReadP Idealize.ShloMosaic Idealize.ShloMosaic.ValueIdx
open Idealize.ShloMosaic.StableHlo.Predicate

/-! ## Words -/

/-- The bit of "a ≠ b". -/
theorem cmpi_ne_eq (a b : BitVec 32) : IntOp.cmpi .ne a b = if a = b then 0#1 else 1#1 := by
  show BitVec.ofBool (a != b) = _
  by_cases h : a = b
  · rw [if_pos h, show (a != b) = false from by simp [h]]; rfl
  · rw [if_neg h, show (a != b) = true from bne_iff_ne.mpr h]; rfl

/-- A fold of "and" from 1 over words that are all 1 is 1. -/
theorem foldl_andi_one {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi 1#1 1#1 = 1#1 from by decide]
    exact foldl_andi_one f hf l

/-! ## The gather -/

/-- The batched gather read at row n: row n of the operand at column c, where c is the start index of row n read
    signed and clamped into the 32000 columns. -/
theorem gather_row {α : Type} (x : S2047x32000.Idx → α) (idx : IVec S2047x1x1 32) (n : Fin 2047) (c : Fin 32000)
    (hc : c.val = min (idx (ix3 n (0 : Fin 1) (0 : Fin 1))).toInt.toNat 31999) :
    Host.gather gather_S2047x32000_S2047x1x1_S2047x1_n_1_0_0_1_2_11 x idx (ix2 n (0 : Fin 1)) = x (ix2 n c) := by
  unfold Host.gather
  congr 1
  funext a
  refine Fin.ext ?_
  match a with
  | ⟨0, _⟩ =>
    -- the row axis is the batching axis: no start, no offset, the result's own row
    show GatherDims.start _ _ idx 0 + GatherDims.batchCoord _ _ 0 + GatherDims.offCoord _ _ 0 = n.val
    have hb : (0 : Fin S2047x32000.rank) ∈ gather_S2047x32000_S2047x1x1_S2047x1_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb, Nat.zero_add, Nat.add_zero]
    rfl
  | ⟨1, _⟩ =>
    -- the column axis is collapsed and start-indexed: the clamped start index alone
    show GatherDims.start _ _ idx 1 + GatherDims.batchCoord _ _ 1 + GatherDims.offCoord _ _ 1 = c.val
    rw [hc]
    have hb : (1 : Fin S2047x32000.rank) ∉ gather_S2047x32000_S2047x1x1_S2047x1_n_1_0_0_1_2_11.operandBatchingDims := by
      decide
    have hc : (1 : Fin S2047x32000.rank) ∈ gather_S2047x32000_S2047x1x1_S2047x1_n_1_0_0_1_2_11.collapsedSliceDims :=
      List.mem_singleton.mpr rfl
    have hm : (1 : Fin S2047x32000.rank) ∈ gather_S2047x32000_S2047x1x1_S2047x1_n_1_0_0_1_2_11.startIndexMap :=
      List.mem_singleton.mpr rfl
    rw [GatherDims.batchCoord_eq_zero _ _ _ hb,
      GatherDims.offCoord_eq_zero _ _ _ (fun h => ((GatherDims.mem_sKept _ _).mp h).1 hc)]
    simp only [Nat.add_zero]
    unfold GatherDims.start
    rw [dif_pos hm]
    have hsi : gather_S2047x32000_S2047x1x1_S2047x1_n_1_0_0_1_2_11.siIdx (ix2 n (0 : Fin 1))
        ⟨List.idxOf (1 : Fin S2047x32000.rank) gather_S2047x32000_S2047x1x1_S2047x1_n_1_0_0_1_2_11.startIndexMap,
          List.idxOf_lt_length_iff.2 hm⟩ = ix3 n (0 : Fin 1) (0 : Fin 1) := by
      funext b; refine Fin.ext ?_
      match b with
      | ⟨0, _⟩ => rfl
      | ⟨1, _⟩ => rfl
      | ⟨2, _⟩ => rfl
    rw [hsi]
    rfl

/-! ## The labels, row by row -/

section Rows

variable (l : (⟨S1x2048, .i32⟩ : BufTy).Contents (Elt Ideal))

/-- The index word of every row is a column: 0 on an uncounted row, the label below 32000 on a counted one. -/
theorem slab_lt (hl : ∀ i, l i = Cert.Loss.ignore ∨ (l i).toNat < 32000) (n : ℕ) : (Cert.Loss.slab l n).toNat < 32000 := by
  unfold Cert.Loss.slab
  split
  · decide
  · rename_i h
    have hr : Cert.Loss.lab l n = Cert.Loss.ignore ∨ (Cert.Loss.lab l n).toNat < 32000 := by
      unfold Cert.Loss.lab
      split
      · exact hl _
      · exact Or.inl rfl
    rcases hr with h' | h'
    · exact absurd h' h
    · exact h'

/-- The sliced and flattened labels at row n: labels[0, n + 1]. -/
theorem v3_row (n : Fin 2047) : val_main_v3 (F := Ideal) l (ix1 n) = Cert.Loss.lab l n.val := by
  rw [val_main_v3_apply, val_main_v1_apply]
  unfold Cert.Loss.lab
  rw [dif_pos n.isLt]
  congr 1
  funext a; refine Fin.ext ?_
  have hn := n.isLt
  match a with
  | ⟨0, _⟩ => rfl
  | ⟨1, _⟩ => show 1 + n.val % 2047 = n.val + 1; omega

/-- The mark of row n: the bit of "label ≠ -100". -/
theorem v7_row (n : Fin 2047) :
    val_main_v7 (F := Ideal) l (ix1 n) = if Cert.Loss.lab l n.val = Cert.Loss.ignore then 0#1 else 1#1 := by
  rw [val_main_v7_apply, v3_row, val_main_v6_apply, val_main_c_apply, cmpi_ne_eq]

/-- The index word of row n: the label on a marked row, 0 otherwise. -/
theorem v8_row (n : Fin 2047) : val_main_v8 (F := Ideal) l (ix1 n) = Cert.Loss.slab l n.val := by
  rw [val_main_v8_apply, v7_row, v3_row, val_main_call1_v1_apply, val_main_call1_v0_apply, val_main_c_0_apply]
  unfold Cert.Loss.slab
  split
  · exact select_zero _ _
  · exact select_one _ _

/-- The same word in the [2047, 1] column. -/
theorem v9_row (n : Fin 2047) : val_main_v9 (F := Ideal) l (ix2 n (0 : Fin 1)) = Cert.Loss.slab l n.val := by
  rw [val_main_v9_apply, show idx_main_v9 (ix2 n (0 : Fin 1)) = ix1 n from funext fun a => by
    match a with | ⟨0, _⟩ => rfl]
  exact v8_row l n

/-- Every index of the [2047, 1, 1] array is (row, 0, 0). -/
theorem eq_row3 (i : S2047x1x1.Idx) : ∃ n : Fin 2047, i = ix3 n (0 : Fin 1) (0 : Fin 1) :=
  ⟨⟨(i 0).val, (i 0).isLt⟩, funext fun a => by
    match a with
    | ⟨0, _⟩ => rfl
    | ⟨1, _⟩ => exact Fin.ext (by have h : (i 1).val < 1 := (i 1).isLt; show (i 1).val = 0; omega)
    | ⟨2, _⟩ => exact Fin.ext (by have h : (i 2).val < 1 := (i 2).isLt; show (i 2).val = 0; omega)⟩

variable (hl : ∀ i, l i = Cert.Loss.ignore ∨ (l i).toNat < 32000)
include hl

/-- The index is not negative: the wrap-around is not taken. -/
theorem call2_v4_row (n : Fin 2047) : val_main_call2_v4 (F := Ideal) l (ix2 n (0 : Fin 1)) = Cert.Loss.slab l n.val := by
  have hs := slab_lt l hl n.val
  rw [val_main_call2_v4_apply, val_main_call2_v1_apply, v9_row, val_main_call2_v0_apply, val_main_call2_c_apply]
  have h0 : IntOp.cmpi .slt (Cert.Loss.slab l n.val) 0#32 = 0#1 :=
    eq_zero_of_ne_one fun h => by
      have := (slt_iff_toNat (by omega) (by decide)).mp h
      simp at this
  rw [h0]
  exact select_zero _ _

/-- The start index of row n, in the [2047, 1, 1] array the gather reads. -/
theorem call2_v5_row (n : Fin 2047) :
    val_main_call2_v5 (F := Ideal) l (ix3 n (0 : Fin 1) (0 : Fin 1)) = Cert.Loss.slab l n.val := by
  rw [val_main_call2_v5_apply, show idx_main_call2_v5 (ix3 n (0 : Fin 1) (0 : Fin 1)) = ix2 n (0 : Fin 1) from funext fun a => by
    match a with
    | ⟨0, _⟩ => exact Fin.ext (show ((n.val * 1 + 0) * 1 + 0) / 1 = n.val by omega)
    | ⟨1, _⟩ => rfl]
  exact call2_v4_row l hl n

/-- The range mask before its reduction is all ones: 0 ≤ index ≤ 31999 on every row. -/
theorem call2_v11_one (i : S2047x1x1.Idx) : val_main_call2_v11 (F := Ideal) l i = 1#1 := by
  obtain ⟨n, rfl⟩ := eq_row3 i
  have hs := slab_lt l hl n.val
  have hge : val_main_call2_v7 (F := Ideal) l (ix3 n (0 : Fin 1) (0 : Fin 1)) = 1#1 := by
    rw [val_main_call2_v7_apply, call2_v5_row l hl, val_main_call2_v6_apply, val_main_call2_c_2_apply]
    exact (sge_iff_toNat (by omega) (by decide)).mpr (by simp)
  have hle : val_main_call2_v10 (F := Ideal) l (ix3 n (0 : Fin 1) (0 : Fin 1)) = 1#1 := by
    rw [val_main_call2_v10_apply, call2_v5_row l hl, val_main_call2_v9_apply, val_main_call2_v8_apply,
      val_main_call2_c_1_apply]
    exact (sle_iff_toNat (by omega) (by decide)).mpr (by
      have : (31999#32 : BitVec 32).toNat = 31999 := by decide
      omega)
  rw [val_main_call2_v11_apply, hge, hle]
  decide

/-- So is the mask: the "and" over the last axis, from 1. -/
theorem call2_v12_one (j : S2047x1.Idx) : val_main_call2_v12 (F := Ideal) l j = 1#1 := by
  unfold val_main_call2_v12
  rw [Host.reduce_eq_foldl, val_main_call2_c_3_apply]
  exact foldl_andi_one _ (call2_v11_one l hl) _

end Rows

/-! ## The picked entry and the sum -/

section Pick

variable (h : (⟨S1x2048x2048, .f32⟩ : BufTy).Contents (Elt Ideal)) (l : (⟨S1x2048, .i32⟩ : BufTy).Contents (Elt Ideal))
  (w : (⟨S32000x2048, .f32⟩ : BufTy).Contents (Elt Ideal))
  (hl : ∀ i, l i = Cert.Loss.ignore ∨ (l i).toNat < 32000)
include hl

/-- Row n's read: the log-softmax array at row n and the row's column (the clamp is the identity on a column). -/
theorem v10_row (n : Fin 2047) :
    val_main_v10 (F := Ideal) h l w (ix2 n (0 : Fin 1))
      = val_main_v5 (F := Ideal) h w (ix2 n (⟨Cert.Loss.col l n.val % 32000, Nat.mod_lt _ (by norm_num)⟩ : Fin 32000)) := by
  have hs := slab_lt l hl n.val
  rw [val_main_v10_apply, call2_v12_one l hl, select_one]
  unfold val_main_call2_v13
  refine gather_row _ _ n _ ?_
  show Cert.Loss.col l n.val % 32000 = _
  rw [call2_v5_row l hl, toInt_eq_toNat_of_lt (by omega), Int.toNat_natCast, Cert.Loss.col_eq, Nat.mod_eq_of_lt hs]
  omega

/-- Row n's term of the sum: 0 on an uncounted row, minus the picked entry on a counted one. -/
theorem v13_row (n : Fin 2047) :
    val_main_v13 (F := Ideal) h l w (ix1 n)
      = if Cert.Loss.lab l n.val = Cert.Loss.ignore then (0 : EReal)
        else -(val_main_v5 (F := Ideal) h w (ix2 n (⟨Cert.Loss.col l n.val % 32000, Nat.mod_lt _ (by norm_num)⟩ : Fin 32000))) := by
  rw [val_main_v13_apply, v7_row]
  split
  · rw [select_zero, val_main_call3_v1_apply, val_main_call3_v0_apply, val_main_cst_apply]
    exact Ideal.ofBits_zero_f32
  · rw [select_one, val_main_v12_apply, val_main_v11_apply,
      show idx_main_v11 (ix1 n) = ix2 n (0 : Fin 1) from funext fun a => by
        match a with
        | ⟨0, _⟩ => exact Fin.ext (Nat.div_one _)
        | ⟨1, _⟩ => rfl,
      v10_row h l w hl]
    rfl

end Pick

/-- The reference's loss: over the counted rows, minus the log-softmax array at the row's label column, summed. -/
theorem loss_of_logp (h : (⟨S1x2048x2048, .f32⟩ : BufTy).Contents (Elt Ideal)) (l : (⟨S1x2048, .i32⟩ : BufTy).Contents (Elt Ideal))
    (w : (⟨S32000x2048, .f32⟩ : BufTy).Contents (Elt Ideal))
    (hl : ∀ i, l i = Cert.Loss.ignore ∨ (l i).toNat < 32000) :
    val_main_v14 (F := Ideal) h l w = fun _ => ∑ n : Fin 2047,
      (if Cert.Loss.lab l n.val = Cert.Loss.ignore then (0 : EReal)
       else -(val_main_v5 (F := Ideal) h w (ix2 n (⟨Cert.Loss.col l n.val % 32000, Nat.mod_lt _ (by norm_num)⟩ : Fin 32000)))) := by
  funext i
  rw [val_main_v14_apply, val_main_cst_1_apply,
    show (FloatOps.ofBits .f32 0x00000000#32 : Ideal .f32) = 0 from Ideal.ofBits_zero_f32, zero_add,
    ← Equiv.sum_comp (idxEquiv1 (n := 2047)).symm]
  exact Finset.sum_congr rfl fun n _ => v13_row h l w hl n

end Cert.ReferenceIdeal.RefValue

end
-- ==== Proof.RefValue.lean ====
/-
  The reference's value: the loss.

  The reference takes a log-softmax of each row's logits, shifted by the row's maximum, picks the label's column,
  negates, zeroes the rows that do not count, and sums. Row by row the picked, negated entry is
  log ∑ exp (x c) - x (label), whatever real the shift is (Cert.OnlineLse.neg_logsoftmax_pick): the loss.
-/
import proofs.«405938_j53068615910223_3_alg».proof.Proof.RefLogp
import proofs.«405938_j53068615910223_3_alg».proof.Proof.RefPick

noncomputable section

namespace Cert.ReferenceIdeal.RefValue

open Cert.ReferenceIdeal Cert.ReferenceIdeal.ReadP Idealize.ShloMosaic Idealize.ShloMosaic.ValueIdx

/-- On the domain the reference's first result is the loss. -/
theorem ref_loss (h : (⟨S1x2048x2048, .f32⟩ : BufTy).Contents (Elt Ideal)) (l : (⟨S1x2048, .i32⟩ : BufTy).Contents (Elt Ideal))
    (w : (⟨S32000x2048, .f32⟩ : BufTy).Contents (Elt Ideal)) (hd : Cert.Loss.Dom h l w) :
    val_main_v14 (F := Ideal) h l w = fun _ => Cert.Loss.loss h l w := by
  rw [loss_of_logp h l w hd.lrange]
  funext _
  unfold Cert.Loss.loss
  refine Finset.sum_congr rfl fun n _ => ?_
  by_cases hl : Cert.Loss.lab l n.val = Cert.Loss.ignore
  · rw [if_pos hl, if_pos hl]
  · rw [if_neg hl, if_neg hl]
    obtain ⟨μ, hμ⟩ := logp_apply h l w hd n
    rw [hμ]
    have hc : Cert.Loss.col l n.val % 32000 = Cert.Loss.col l n.val := Nat.mod_eq_of_lt (Cert.Loss.col_lt hd _)
    simp only [hc]
    exact Cert.OnlineLse.neg_logsoftmax_pick (Cert.Loss.x h w n.val) 32000 (by norm_num) μ (Cert.Loss.col l n.val)

end Cert.ReferenceIdeal.RefValue

end
-- ==== Proof.Pre.lean ====
/-
  What the printed precondition says of the three argument arrays.

  The precondition is a conjunction of three "for all entries" statements, each a reduction by "and" of a
  one-bit array from the constant true: |h| < +∞ everywhere, |w| < +∞ everywhere, and every label either the word
  of -100 or a signed word in [0, 32000). Read back entry by entry: an extended real whose absolute value lies
  below +∞ is a real number; a signed 32-bit word between 0 and 32000 reads unsigned below 32000.
-/
import proofs.«405938_j53068615910223_3_alg».proof.Pre_finite_inputs
import proofs.«405938_j53068615910223_3_alg».proof.Proof.Loss
import Idealize.ShloMosaic.Lib.ReduceAll
import Idealize.ShloMosaic.Lib.StableHlo.Predicate
import Idealize.ShloMosaic.PureOps.Ideal.Laws
import Idealize.ShloMosaic.Lib.ValueIdx

noncomputable section

namespace Cert.Pre_finite_inputs.Decode

open Cert.Pre_finite_inputs Idealize.ShloMosaic

/-- The rank-0 shape has one index. -/
instance : Subsingleton S_.Idx := ⟨fun a b => funext fun d => d.elim0⟩

/-- The f32 word 0x7F800000 denotes +∞. -/
theorem ofBits_inf : Ideal.ofBits .f32 0x7F800000#32 = (⊤ : EReal) := by simp [Ideal.ofBits, Ideal.ieee]

/-- An extended real whose absolute value max x (-x) lies strictly below +∞ is a real number: at ⊤ the maximum is ⊤,
    at ⊥ the negation is ⊤. -/
theorem real_of_abs_lt_inf (x : EReal)
    (hx : Ideal.cmp .olt (max x (-x)) (Ideal.ofBits .f32 0x7F800000#32) = 1#1) : ∃ r : ℝ, x = (r : EReal) := by
  rw [ofBits_inf] at hx
  unfold Ideal.cmp at hx
  rw [StableHlo.Predicate.ofBool_eq_one_iff, decide_eq_true_eq, max_lt_iff] at hx
  induction x using EReal.rec with
  | bot => exact absurd hx.2 (by simp)
  | top => exact absurd hx.1 (by simp)
  | coe r => exact ⟨r, rfl⟩

/-- A label word that passes "equal to -100, or signed at least 0 and signed below 32000" is the word of -100 or
    reads unsigned below 32000: a signed-nonnegative word reads the same signed and unsigned. -/
theorem label_of_word (a : BitVec 32)
    (ha : IntOp.ori (IntOp.cmpi .eq a 4294967196#32)
      (IntOp.andi (IntOp.cmpi .sge a 0#32) (IntOp.cmpi .slt a 32000#32)) = 1#1) :
    a = 4294967196#32 ∨ a.toNat < 32000 := by
  rcases IntOp.ori_eq_one.1 ha with h | h
  · exact Or.inl (IntOp.cmpi_eq.1 h)
  · right
    obtain ⟨h0, h1⟩ := IntOp.andi_eq_one.1 h
    rw [IntOp.cmpi_sge, show (0#32 : BitVec 32).toInt = 0 from by decide] at h0
    rw [IntOp.cmpi_slt, show (32000#32 : BitVec 32).toInt = 32000 from by decide] at h1
    rw [BitVec.toInt_eq_toNat_cond] at h0 h1
    have := a.isLt
    split at h0 <;> omega

/-- The printed precondition holding puts the three arrays in the domain: every entry of h and of w a real number,
    every label -100 or a column below 32000. -/
theorem dom_of_pre [Cert.Pre_finite_inputs.Facts] (h : FVec Ideal S1x2048x2048 .f32) (l : IVec S1x2048 32)
    (w : FVec Ideal S32000x2048 .f32)
    (hp : Cert.Pre_finite_inputs.fn (F := Ideal) h l w = fun _ => 1#1) : Cert.Loss.Dom h l w := by
  have e := congrFun hp ValueIdx.ix0
  dsimp only [Cert.Pre_finite_inputs.fn, Cert.Pre_finite_inputs.fn_part1] at e
  -- the outer conjunction, then the inner one
  obtain ⟨e12, e3⟩ := IntOp.andi_eq_one.1 e
  obtain ⟨e1, e2⟩ := IntOp.andi_eq_one.1 e12
  refine ⟨fun i => ?_, fun i => ?_, fun i => ?_⟩
  · exact real_of_abs_lt_inf (h i) (Host.reduce_andi_all _ _ _ _ _ e1 i)
  · exact real_of_abs_lt_inf (w i) (Host.reduce_andi_all _ _ _ _ _ e2 i)
  · exact label_of_word (l i) (Host.reduce_andi_all _ _ _ _ _ e3 i)

end Cert.Pre_finite_inputs.Decode

end
-- ==== Proof.lean ====
/-
  The certificate's proof.

  Kernel: a fused linear layer and cross-entropy. Rows of hidden states (shifted by one position against the
  labels, padded to 2048 rows) are multiplied against the output matrix 640 columns at a time; per row a running
  maximum, a running sum of shifted exponentials and the label's logit are carried across the 50 column blocks
  (an online log-sum-exp), and the last block stores max + log sum - picked logit. The program then sums that
  column over the rows whose label is not -100 and counts those rows.
  Reference: logits by one matrix product, log-softmax, the label's column picked, negated, masked, summed; the
  same count.

  Both are the same two numbers, the loss and the count of Cert.Loss, on the domain the precondition gives
  (Cert.Loss.Dom: real entries; every label -100 or a column index): the kernel's by the sweep invariant
  (Proof/Sweep.lean) and μ + log ∑ exp (x - μ) = log ∑ exp x (Proof/OnlineLse.lean); the reference's by the same
  identity for its shift (Proof/RefValue.lean). The three frames are the generated ones; the idealization
  rewrote nothing.
-/
import proofs.«405938_j53068615910223_3_alg».proof.Defs
import proofs.«405938_j53068615910223_3_alg».proof.Proof.Gen.Kernel
import proofs.«405938_j53068615910223_3_alg».proof.Proof.Gen.Kernel.Skeleton
import proofs.«405938_j53068615910223_3_alg».proof.Proof.Gen.Kernel.Launch
import proofs.«405938_j53068615910223_3_alg».proof.Proof.Gen.Kernel.Points
import proofs.«405938_j53068615910223_3_alg».proof.Proof.Gen.Kernel.Frame
import proofs.«405938_j53068615910223_3_alg».proof.Proof.Gen.KernelIdeal
import proofs.«405938_j53068615910223_3_alg».proof.Proof.Gen.KernelIdeal.Skeleton
import proofs.«405938_j53068615910223_3_alg».proof.Proof.Gen.KernelIdeal.Launch
import proofs.«405938_j53068615910223_3_alg».proof.Proof.Gen.KernelIdeal.Points
import proofs.«405938_j53068615910223_3_alg».proof.Proof.Gen.KernelIdeal.Frame
import proofs.«405938_j53068615910223_3_alg».proof.Proof.Gen.ReferenceIdeal
import proofs.«405938_j53068615910223_3_alg».proof.Proof.Gen.Pre_finite_inputs
import proofs.«405938_j53068615910223_3_alg».proof.Proof.KernelValue
import proofs.«405938_j53068615910223_3_alg».proof.Proof.RefValue
import proofs.«405938_j53068615910223_3_alg».proof.Proof.Count
import proofs.«405938_j53068615910223_3_alg».proof.Proof.Pre
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- On the precondition's domain both programs end with the loss and the count of the three arrays. -/
theorem algebraic : Cert.algebraic_KernelIdeal_ReferenceIdeal := by
  intro m ρ m' ρ' hpre hagree
  have hd : ∀ c : Dev Cert.KernelIdeal.nD, Cert.Loss.Dom (Cert.KernelIdeal.Sweep.H m c) (Cert.KernelIdeal.Sweep.L m c) (Cert.KernelIdeal.Sweep.W m c) :=
    fun c => Cert.Pre_finite_inputs.Decode.dom_of_pre _ _ _ (hpre c)
  refine ⟨fun c => fun _ => Cert.Loss.loss (Cert.KernelIdeal.Sweep.H m c) (Cert.KernelIdeal.Sweep.L m c) (Cert.KernelIdeal.Sweep.W m c),
    fun c => fun _ => Cert.Loss.count (Cert.KernelIdeal.Sweep.L m c), Cert.KernelIdeal.Sweep.run m ρ hd, ?_⟩
  refine (θ_run Cert.ReferenceIdeal.defs _ _).mono (fun _ h c => ?_) (Cert.ReferenceIdeal.ValueP.run (F := Ideal) m' ρ')
  obtain ⟨h14, h16, ha0, ha1, ha2⟩ := h c
  refine ⟨h14.trans ?_, h16.trans ?_, ha0, ha1, ha2⟩
  · rw [Cert.ReferenceIdeal.ReadP.val_main_v14_eq, (hagree c).1, (hagree c).2.1, (hagree c).2.2]
    exact Cert.ReferenceIdeal.RefValue.ref_loss _ _ _ (hd c)
  · rw [(hagree c).2.1]
    exact Cert.ReferenceIdeal.RefValue.ref_count _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
